-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_c_0 : IVec S_ 32 := constantI S_ 32 0#32
  let main_v4 : IVec S33554432 32 := broadcastInDim S33554432 ![] bcast_S_S33554432 main_c_0
  let main_v5 : IVec S33554432 1 := cmpi .sge main_arg1 main_v4
  let main_c_1 : IVec S_ 1 := constantI S_ 1 1#1
  let main_v6 : IVec S_ 1 := (fun x v => Host.reduce IntOp.andi x v reducesTo_S33554432_S_d0 h_S_) main_v5 main_c_1
  let main_v7 : IVec S_ 1 := andi main_v3 main_v6
  let main_c_2 : IVec S_ 32 := constantI S_ 32 2#32
  let main_v8 : IVec S33554432 32 := broadcastInDim S33554432 ![] bcast_S_S33554432 main_c_2
  let main_v9 : IVec S33554432 1 := cmpi .slt main_arg1 main_v8
  let main_c_3 : IVec S_ 1 := constantI S_ 1 1#1
  let main_v10 : IVec S_ 1 := (fun x v => Host.reduce IntOp.andi x v reducesTo_S33554432_S_d0 h_S_) main_v9 main_c_3
  let main_v11 : IVec S_ 1 := andi main_v7 main_v10
  main_v11
-- ==== Kernel.lean ====
abbrev S33554432 : Shape := ⟨1, ![33554432]⟩
abbrev S262144x128 : Shape := ⟨2, ![262144, 128]⟩
abbrev S2x3x8x128 : Shape := ⟨4, ![2, 3, 8, 128]⟩
abbrev S8192x128 : Shape := ⟨2, ![8192, 128]⟩
abbrev S1x3x8x128 : Shape := ⟨4, ![1, 3, 8, 128]⟩
abbrev S8x128 : Shape := ⟨2, ![8, 128]⟩
abbrev S1024x8x128 : Shape := ⟨3, ![1024, 8, 128]⟩
abbrev S1x1x8x128 : Shape := ⟨4, ![1, 1, 8, 128]⟩
abbrev S2x1x8x128 : Shape := ⟨4, ![2, 1, 8, 128]⟩
abbrev S2x8x128 : Shape := ⟨3, ![2, 8, 128]⟩
abbrev S_ : Shape := ⟨0, ![]⟩

abbrev nBuf : Space → Nat
  | .hbm => 69
  | .vmem => 9
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S2x3x8x128, .f32⟩
  | .hbm, ⟨5, _⟩ => ⟨S2x1x8x128, .f32⟩
  | .hbm, ⟨6, _⟩ => ⟨S2x8x128, .f32⟩
  | .hbm, ⟨7, _⟩ => ⟨S_, .f32⟩
  | .hbm, ⟨8, _⟩ => ⟨S_, .f32⟩
  | .hbm, ⟨9, _⟩ => ⟨S2x1x8x128, .f32⟩
  | .hbm, ⟨10, _⟩ => ⟨S2x8x128, .f32⟩
  | .hbm, ⟨11, _⟩ => ⟨S_, .f32⟩
  | .hbm, ⟨12, _⟩ => ⟨S_, .f32⟩
  | .hbm, ⟨13, _⟩ => ⟨S2x1x8x128, .f32⟩
  | .hbm, ⟨14, _⟩ => ⟨S2x8x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S1x3x8x128, .f32⟩
  | .local _ .vmem, ⟨5, _⟩ => ⟨S1x3x8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_cst_8 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_cst_13 : Ref sig .tc := ⟨.hbm, 58, rfl⟩
abbrev main_cst_14 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v39 : Ref sig .tc := ⟨.hbm, 63, rfl⟩
abbrev main_v40 : Ref sig .tc := ⟨.hbm, 64, rfl⟩
abbrev main_cst_15 : Ref sig .tc := ⟨.hbm, 65, rfl⟩
abbrev main_v41 : Ref sig .tc := ⟨.hbm, 66, rfl⟩
abbrev main_cst_16 : Ref sig .tc := ⟨.hbm, 67, rfl⟩
abbrev main_v42 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_19 : BitVec 32 := 0#32
  let v35 : BitVec 1 := Scalar.cmpi .ne v34 c0_i32_19
  v35

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S262144x128 : S33554432.ShapeCasts S262144x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S1024x8x128 : S8192x128.ShapeCasts S1024x8x128
  reduces_S1024x8x128_S8x128 : S1024x8x128.Reduces [0] S8x128
  inb_S1x3x8x128_S1x1x8x128_0_0_0_0 : ∀ a, (![0, 0, 0, 0] : Fin 4 → Nat) a + S1x1x8x128.size a ≤ S1x3x8x128.size a
  h_S1x1x8x128 : 0 < S1x1x8x128.numel
  shapeCasts_S1x1x8x128_S8x128 : S1x1x8x128.ShapeCasts S8x128
  shapeCasts_S8x128_S1x1x8x128 : S8x128.ShapeCasts S1x1x8x128
  inb_S1x3x8x128_S1x1x8x128_0_1_0_0 : ∀ a, (![0, 1, 0, 0] : Fin 4 → Nat) a + S1x1x8x128.size a ≤ S1x3x8x128.size a
  inb_S1x3x8x128_S1x1x8x128_0_2_0_0 : ∀ a, (![0, 2, 0, 0] : Fin 4 → Nat) a + S1x1x8x128.size a ≤ S1x3x8x128.size a
  slices_S2x3x8x128_S2x1x8x128_0_0_0_0 : S2x3x8x128.Slices ![0, 0, 0, 0] S2x1x8x128
  shapeCasts_S2x1x8x128_S2x8x128 : S2x1x8x128.ShapeCasts S2x8x128
  reducesTo_S2x8x128_S_d0_1_2 : S2x8x128.ReducesTo [0, 1, 2] S_
  h_S_ : 0 < S_.numel
  slices_S2x3x8x128_S2x1x8x128_0_1_0_0 : S2x3x8x128.Slices ![0, 1, 0, 0] S2x1x8x128
  slices_S2x3x8x128_S2x1x8x128_0_2_0_0 : S2x3x8x128.Slices ![0, 2, 0, 0] S2x1x8x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .i32 = 32 ∨ (Rect.block (s := S262144x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x8x128.size a ≤ S2x3x8x128.size a
  hwx0_2 : ∀ i : grid0.Coords, EltTy.bits .f32 = 32 ∨ (Rect.block (s := S2x3x8x128) S1x3x8x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S33554432x1 : Shape := ⟨2, ![33554432, 1]⟩
abbrev S1x2 : Shape := ⟨2, ![1, 2]⟩
abbrev S33554432x2 : Shape := ⟨2, ![33554432, 2]⟩
abbrev S_ : Shape := ⟨0, ![]⟩
abbrev S2 : Shape := ⟨1, ![2]⟩

abbrev nBuf : Space → Nat
  | .hbm => 78
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S33554432x1, .i32⟩
  | .hbm, ⟨3, _⟩ => ⟨S1x2, .i32⟩
  | .hbm, ⟨4, _⟩ => ⟨S33554432x2, .i32⟩
  | .hbm, ⟨5, _⟩ => ⟨S33554432x2, .i32⟩
  | .hbm, ⟨6, _⟩ => ⟨S33554432x2, .i1⟩
  | .hbm, ⟨7, _⟩ => ⟨S33554432x2, .f32⟩
  | .hbm, ⟨8, _⟩ => ⟨S_, .f32⟩
  | .hbm, ⟨9, _⟩ => ⟨S33554432, .f32⟩
  | .hbm, ⟨10, _⟩ => ⟨S33554432, .i1⟩
  | .hbm, ⟨11, _⟩ => ⟨S_, .f32⟩
  | .hbm, ⟨12, _⟩ => ⟨S33554432, .f32⟩
  | .hbm, ⟨13, _⟩ => ⟨S33554432, .f32⟩
  | .hbm, ⟨14, _⟩ => ⟨S33554432, .f32⟩
  | .hbm, ⟨15, _⟩ => ⟨S_, .f32⟩
  | .hbm, ⟨16, _⟩ => ⟨S33554432, .f32⟩
  | .hbm, ⟨17, _⟩ => ⟨S33554432, .f32⟩
  | .hbm, ⟨18, _⟩ => ⟨S33554432x1, .f32⟩
  | .hbm, ⟨19, _⟩ => ⟨S33554432x1, .f32⟩
  | .hbm, ⟨20, _⟩ => ⟨S33554432x2, .f32⟩
  | .hbm, ⟨21, _⟩ => ⟨S33554432x2, .f32⟩
  | .hbm, ⟨22, _⟩ => ⟨S_, .f32⟩
  | .hbm, ⟨23, _⟩ => ⟨S2, .f32⟩
  | .hbm, ⟨24, _⟩ => ⟨S_, .f32⟩
  | .hbm, ⟨25, _⟩ => ⟨S33554432x2, .f32⟩
  | .hbm, ⟨26, _⟩ => ⟨S33554432x2, .f32⟩
  | .hbm, ⟨27, _⟩ => ⟨S_, .f32⟩
  | .hbm, ⟨28, _⟩ => ⟨S33554432x2, .f32⟩
  | .hbm, ⟨29, _⟩ => ⟨S33554432x2, .f32⟩
  | .hbm, ⟨30, _⟩ => ⟨S33554432x2, .f32⟩
  | .hbm, ⟨31, _⟩ => ⟨S_, .f32⟩
  | .hbm, ⟨32, _⟩ => ⟨S2, .f32⟩
  | .hbm, ⟨33, _⟩ => ⟨S_, .f32⟩
  | .hbm, ⟨34, _⟩ => ⟨S33554432x2, .f32⟩
  | .hbm, ⟨35, _⟩ => ⟨S33554432x2, .f32⟩
  | .hbm, ⟨36, _⟩ => ⟨S33554432x2, .f32⟩
  | .hbm, ⟨37, _⟩ => ⟨S_, .f32⟩
  | .hbm, ⟨38, _⟩ => ⟨S2, .f32⟩
  | .hbm, ⟨39, _⟩ => ⟨S_, .f32⟩
  | .hbm, ⟨40, _⟩ => ⟨S33554432x2, .f32⟩
  | .hbm, ⟨41, _⟩ => ⟨S33554432x2, .f32⟩
  | .hbm, ⟨42, _⟩ => ⟨S33554432x2, .f32⟩
  | .hbm, ⟨43, _⟩ => ⟨S_, .f32⟩
  | .hbm, ⟨44, _⟩ => ⟨S2, .f32⟩
  | .hbm, ⟨45, _⟩ => ⟨S2, .f32⟩
  | .hbm, ⟨46, _⟩ => ⟨S_, .f32⟩
  | .hbm, ⟨47, _⟩ => ⟨S2, .f32⟩
  | .hbm, ⟨48, _⟩ => ⟨S2, .f32⟩
  | .hbm, ⟨49, _⟩ => ⟨S2, .f32⟩
  | .hbm, ⟨50, _⟩ => ⟨S2, .f32⟩
  | .hbm, ⟨51, _⟩ => ⟨S_, .f32⟩
  | .hbm, ⟨52, _⟩ => ⟨S2, .f32⟩
  | .hbm, ⟨53, _⟩ => ⟨S2, .f32⟩
  | .hbm, ⟨54, _⟩ => ⟨S2, .f32⟩
  | .hbm, ⟨55, _⟩ => ⟨S2, .f32⟩
  | .hbm, ⟨56, _⟩ => ⟨S_, .f32⟩
  | .hbm, ⟨57, _⟩ => ⟨S2, .f32⟩
  | .hbm, ⟨58, _⟩ => ⟨S2, .f32⟩
  | .hbm, ⟨59, _⟩ => ⟨S2, .f32⟩
  | .hbm, ⟨60, _⟩ => ⟨S_, .f32⟩
  | .hbm, ⟨61, _⟩ => ⟨S2, .f32⟩
  | .hbm, ⟨62, _⟩ => ⟨S2, .f32⟩
  | .hbm, ⟨63, _⟩ => ⟨S2, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S2, .f32⟩
  | .hbm, ⟨68, _⟩ => ⟨S2, .f32⟩
  | .hbm, ⟨69, _⟩ => ⟨S_, .f32⟩
  | .hbm, ⟨70, _⟩ => ⟨S2, .f32⟩
  | .hbm, ⟨71, _⟩ => ⟨S2, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_cst_8 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_9 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_11 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_12 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_13 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_14 : Ref sig .tc := ⟨.hbm, 64, rfl⟩
abbrev main_cst_15 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v42 : Ref sig .tc := ⟨.hbm, 71, rfl⟩
abbrev main_cst_16 : Ref sig .tc := ⟨.hbm, 72, rfl⟩
abbrev main_v43 : Ref sig .tc := ⟨.hbm, 73, rfl⟩
abbrev main_cst_17 : Ref sig .tc := ⟨.hbm, 74, rfl⟩
abbrev main_v44 : Ref sig .tc := ⟨.hbm, 75, rfl⟩
abbrev main_cst_18 : Ref sig .tc := ⟨.hbm, 76, rfl⟩
abbrev main_v45 : Ref sig .tc := ⟨.hbm, 77, rfl⟩

abbrev nD : Nat := 1
abbrev τ : Topo := Topo.v7x

variable {F : FTy → Type} [FloatOps F]

class Facts₀ : Prop where
  bcast_S33554432_S33554432x1_0 : S33554432.BroadcastsInDim S33554432x1 (![0] : Fin 1 → Fin S33554432x1.rank)
  bcast_S33554432x1_S33554432x2_0_1 : S33554432x1.BroadcastsInDim S33554432x2 (![0, 1] : Fin 2 → Fin S33554432x2.rank)
  bcast_S1x2_S33554432x2_0_1 : S1x2.BroadcastsInDim S33554432x2 (![0, 1] : Fin 2 → Fin S33554432x2.rank)
  bcast_S_S33554432 : S_.BroadcastsInDim S33554432 (![] : Fin 0 → Fin S33554432.rank)
  concatenates_S33554432x1_S33554432x1_S33554432x2_d1 : Shape.Concatenates [S33554432x1, S33554432x1] S33554432x2 1
  reducesTo_S33554432x2_S2_d0 : S33554432x2.ReducesTo [0] S2
  h_S_ : 0 < S_.numel
  bcast_S_S33554432x2 : S_.BroadcastsInDim S33554432x2 (![] : Fin 0 → Fin S33554432x2.rank)
  bcast_S_S2 : S_.BroadcastsInDim S2 (![] : Fin 0 → Fin S2.rank)
  reducesTo_S2_S_d0 : S2.ReducesTo [0] S_

variable [Facts₀]

class Facts : Prop extends Facts₀ where

variable [Facts]
-- ==== Proof.Spec.lean ====
/-
  The loss as ONE function of the two argument arrays, over the extended reals.

  For a prediction array `x` and a label array `y` of N = 2^25 entries write, entry by entry,
  `t n` for the label read as a number and `q n = min (x n) (1 - x n)` for the smaller of a
  prediction and its complement.  Three sums carry everything:
    T = Σ t n,   Q = Σ q n,   B = Σ t n · q n.
  With binary labels the confusion counts of the two classes are
    class 0:  tp = Q - B,  fp = B,            fn = (N - T) - (Q - B)
    class 1:  tp = T - B,  fp = (N - T) - (Q - B),  fn = B
  and each class's score is the clipped harmonic mean `f1 tp fp fn` of precision
  tp / (tp + fp + ε) and recall tp / (tp + fn + ε); the loss is one minus the mean of the two
  scores.  Every operation below is the exact one on the extended reals; the literals are kept
  as the 32-bit words both programs print (ε = 1e-7, the upper clip 1 - ε as rounded to f32,
  N = 2^25 exactly).
-/
import Idealize.ShloMosaic.PureOps.Ideal
import Idealize.ShloMosaic.Lib.ValueIdx

noncomputable section

namespace Cert.F1

open Idealize.ShloMosaic

/-- The flat shape of both argument arrays. -/
abbrev SN : Shape := ⟨1, ![33554432]⟩
/-- The shape of the scalar result. -/
abbrev S0 : Shape := ⟨0, ![]⟩

/-- ε, the guard added to every denominator and the lower clip. -/
def eps : EReal := Ideal.ofBits .f32 0x33D6BF95#32
/-- The upper clip, 1 - ε as an f32 literal. -/
def hi : EReal := Ideal.ofBits .f32 0x3F7FFFFE#32
def one : EReal := Ideal.ofBits .f32 0x3F800000#32
def two : EReal := Ideal.ofBits .f32 0x40000000#32
def half : EReal := Ideal.ofBits .f32 0x3F000000#32
/-- The number of entries, N = 2^25, as the kernel's literal. -/
def cnt : EReal := Ideal.ofBits .f32 0x4C000000#32

/-- One class's clipped F1 score from its true positives, false positives and false negatives. -/
def f1 (tp fp fn : EReal) : EReal :=
  min hi (max eps (Ideal.div (two * (Ideal.div tp (tp + fp + eps) * Ideal.div tp (tp + fn + eps)))
    (Ideal.div tp (tp + fp + eps) + Ideal.div tp (tp + fn + eps) + eps)))

/-- The loss from the three sums T, Q, B. -/
def loss (T Q B : EReal) : EReal :=
  one - (f1 (Q - B) B ((cnt - T) - (Q - B)) + f1 (T - B) ((cnt - T) - (Q - B)) B) * half

/-- A label read as a number. -/
def lab (y : IVec SN 32) (n : Fin 33554432) : EReal := (((y (ValueIdx.ix1 n)).toInt : ℝ) : EReal)

/-- The smaller of a prediction and its complement. -/
def small (x : FVec Ideal SN .f32) (n : Fin 33554432) : EReal :=
  min (x (ValueIdx.ix1 n)) (one - x (ValueIdx.ix1 n))

/-- The three sums over all entries. -/
def sumT (y : IVec SN 32) : EReal := ∑ n : Fin 33554432, lab y n
def sumQ (x : FVec Ideal SN .f32) : EReal := ∑ n : Fin 33554432, small x n
def sumB (x : FVec Ideal SN .f32) (y : IVec SN 32) : EReal := ∑ n : Fin 33554432, lab y n * small x n

/-- The result array (a scalar) both programs end with. -/
def spec (x : FVec Ideal SN .f32) (y : IVec SN 32) : FVec Ideal S0 .f32 :=
  fun _ => loss (sumT y) (sumQ x) (sumB x y)

end Cert.F1

end
-- ==== Proof.KPieces.lean ====
import proofs.«421495_j77902116815085_3_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

/-! What each case of the body leaves in the three accumulators and in the output block.

The body keeps three [8,128] accumulators: of the labels, of the smaller-of-(p, 1-p) values, and of their
products.  At the first step of a row of sixteen grid points it zeroes them and then adds this step's partial
sums; at every other step it adds to what the step before left; at the last step it also copies the three
accumulators into the three [8,128] planes of its [1,3,8,128] output block. -/

namespace Cert.KernelIdeal.KV

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

theorem hz2 : (![0, 0] : Fin 2 → Nat) = fun _ => 0 := funext fun a => by fin_cases a <;> rfl

variable (c : Dev nD) (i : grid0.Coords)
  (a2 : Memref sig .tc .vmem S8192x128 .f32) (h2 : a2.IsWhole) (a3 : Memref sig .tc .vmem S8192x128 .i32) (h3 : a3.IsWhole)
  (a4 : Memref sig .tc .vmem S1x3x8x128 .f32) (h4 : a4.IsWhole) (a5 : Memref sig .tc .vmem S8x128 .f32) (h5 : a5.IsWhole)
  (a6 : Memref sig .tc .vmem S8x128 .f32) (h6 : a6.IsWhole) (a7 : Memref sig .tc .vmem S8x128 .f32) (h7 : a7.IsWhole)

/-- The three planes of an output block, stacked along its second axis. -/
def stack3 (s0 s1 s2 : Vec F S8x128 .f32) : Vec F S1x3x8x128 .f32 := fun y =>
  if (y 1).val = 0 then s0 (ValueIdx.ix2 (y 2) (y 3)) else if (y 1).val = 1 then s1 (ValueIdx.ix2 (y 2) (y 3)) else s2 (ValueIdx.ix2 (y 2) (y 3))

/-! ## A step that is neither first nor last: each accumulator gains this step's partial sum -/

theorem sB0 (hc0 : ¬cond0_0 i) (hc1 : ¬cond0_1 i) (x0 : Vec F S8192x128 .f32) (x1 : Vec F S8192x128 .i32) (xs0 xs1 xs2 : Vec F S8x128 .f32) :
    sout0_B_0 c i a2 h2 a3 h3 a4 h4 a5 h5 a6 h6 a7 h7 hc0 hc1 x0 x1 xs0 xs1 xs2 = k0_pay9 x1 xs0 := by
  unfold sout0_B_0
  rw [View.read_writes_eq_canon _ _ _ (scover0_B_0 c i a2 h2 a3 h3 a4 h4 a5 h5 a6 h6 a7 h7 hc0 hc1 x0 x1 xs0 xs1 xs2)]
  unfold kernelRun0_B
  dsimp only
  sl_unfold_words
  rw [View.canon_unit_zero (S := S8x128) hz2]
  simp only [View.readAt_eq_ld, h2.read_unread, h3.read_unread, h5.read_unread, h6.read_unread, h7.read_unread,
    View.ld_unit_zero (S := S8x128) hz2, View.ld_unit_zero (S := S8192x128) hz2]

theorem sB1 (hc0 : ¬cond0_0 i) (hc1 : ¬cond0_1 i) (x0 : Vec F S8192x128 .f32) (x1 : Vec F S8192x128 .i32) (xs0 xs1 xs2 : Vec F S8x128 .f32) :
    sout0_B_1 c i a2 h2 a3 h3 a4 h4 a5 h5 a6 h6 a7 h7 hc0 hc1 x0 x1 xs0 xs1 xs2 = k0_pay10 x0 xs1 := by
  unfold sout0_B_1
  rw [View.read_writes_eq_canon _ _ _ (scover0_B_1 c i a2 h2 a3 h3 a4 h4 a5 h5 a6 h6 a7 h7 hc0 hc1 x0 x1 xs0 xs1 xs2)]
  unfold kernelRun0_B
  dsimp only
  sl_unfold_words
  rw [View.canon_unit_zero (S := S8x128) hz2]
  simp only [View.readAt_eq_ld, h2.read_unread, h3.read_unread, h5.read_unread, h6.read_unread, h7.read_unread,
    View.ld_unit_zero (S := S8x128) hz2, View.ld_unit_zero (S := S8192x128) hz2]

theorem sB2 (hc0 : ¬cond0_0 i) (hc1 : ¬cond0_1 i) (x0 : Vec F S8192x128 .f32) (x1 : Vec F S8192x128 .i32) (xs0 xs1 xs2 : Vec F S8x128 .f32) :
    sout0_B_2 c i a2 h2 a3 h3 a4 h4 a5 h5 a6 h6 a7 h7 hc0 hc1 x0 x1 xs0 xs1 xs2 = k0_pay11 x0 x1 xs2 := by
  unfold sout0_B_2
  rw [View.read_writes_eq_canon _ _ _ (scover0_B_2 c i a2 h2 a3 h3 a4 h4 a5 h5 a6 h6 a7 h7 hc0 hc1 x0 x1 xs0 xs1 xs2)]
  unfold kernelRun0_B
  dsimp only
  sl_unfold_words
  rw [View.canon_unit_zero (S := S8x128) hz2]
  simp only [View.readAt_eq_ld, h2.read_unread, h3.read_unread, h5.read_unread, h6.read_unread, h7.read_unread,
    View.ld_unit_zero (S := S8x128) hz2, View.ld_unit_zero (S := S8192x128) hz2]

/-! ## The last step of a row: the same update of the accumulators -/

theorem sC0 (hc0 : ¬cond0_0 i) (hc1 : cond0_1 i) (x0 : Vec F S8192x128 .f32) (x1 : Vec F S8192x128 .i32) (xs0 xs1 xs2 : Vec F S8x128 .f32) :
    sout0_C_0 c i a2 h2 a3 h3 a4 h4 a5 h5 a6 h6 a7 h7 hc0 hc1 x0 x1 xs0 xs1 xs2 = k0_pay9 x1 xs0 := by
  unfold sout0_C_0
  rw [View.read_writes_eq_canon _ _ _ (scover0_C_0 c i a2 h2 a3 h3 a4 h4 a5 h5 a6 h6 a7 h7 hc0 hc1 x0 x1 xs0 xs1 xs2)]
  unfold kernelRun0_C
  dsimp only
  sl_unfold_words
  rw [View.canon_unit_zero (S := S8x128) hz2]
  simp only [View.readAt_eq_ld, h2.read_unread, h3.read_unread, h5.read_unread, h6.read_unread, h7.read_unread,
    View.ld_unit_zero (S := S8x128) hz2, View.ld_unit_zero (S := S8192x128) hz2]

theorem sC1 (hc0 : ¬cond0_0 i) (hc1 : cond0_1 i) (x0 : Vec F S8192x128 .f32) (x1 : Vec F S8192x128 .i32) (xs0 xs1 xs2 : Vec F S8x128 .f32) :
    sout0_C_1 c i a2 h2 a3 h3 a4 h4 a5 h5 a6 h6 a7 h7 hc0 hc1 x0 x1 xs0 xs1 xs2 = k0_pay10 x0 xs1 := by
  unfold sout0_C_1
  rw [View.read_writes_eq_canon _ _ _ (scover0_C_1 c i a2 h2 a3 h3 a4 h4 a5 h5 a6 h6 a7 h7 hc0 hc1 x0 x1 xs0 xs1 xs2)]
  unfold kernelRun0_C
  dsimp only
  sl_unfold_words
  rw [View.canon_unit_zero (S := S8x128) hz2]
  simp only [View.readAt_eq_ld, h2.read_unread, h3.read_unread, h5.read_unread, h6.read_unread, h7.read_unread,
    View.ld_unit_zero (S := S8x128) hz2, View.ld_unit_zero (S := S8192x128) hz2]

theorem sC2 (hc0 : ¬cond0_0 i) (hc1 : cond0_1 i) (x0 : Vec F S8192x128 .f32) (x1 : Vec F S8192x128 .i32) (xs0 xs1 xs2 : Vec F S8x128 .f32) :
    sout0_C_2 c i a2 h2 a3 h3 a4 h4 a5 h5 a6 h6 a7 h7 hc0 hc1 x0 x1 xs0 xs1 xs2 = k0_pay11 x0 x1 xs2 := by
  unfold sout0_C_2
  rw [View.read_writes_eq_canon _ _ _ (scover0_C_2 c i a2 h2 a3 h3 a4 h4 a5 h5 a6 h6 a7 h7 hc0 hc1 x0 x1 xs0 xs1 xs2)]
  unfold kernelRun0_C
  dsimp only
  sl_unfold_words
  rw [View.canon_unit_zero (S := S8x128) hz2]
  simp only [View.readAt_eq_ld, h2.read_unread, h3.read_unread, h5.read_unread, h6.read_unread, h7.read_unread,
    View.ld_unit_zero (S := S8x128) hz2, View.ld_unit_zero (S := S8192x128) hz2]

/-! ## The first step of a row: the accumulators are zeroed, then gain this step's partial sum -/

theorem sA0 (hc0 : cond0_0 i) (hc1 : ¬cond0_1 i) (x0 : Vec F S8192x128 .f32) (x1 : Vec F S8192x128 .i32) :
    sout0_A_0 c i a2 h2 a3 h3 a4 h4 a5 h5 a6 h6 a7 h7 hc0 hc1 x0 x1 = k0_pay9 x1 (k0_pay4 (F := F)) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S8x128) hz2, View.readCov_unit_zero (S := S8x128) _ hz2]
  simp only [View.readAt_eq_ld, h2.read_unread, h3.read_unread, View.ld_unit_zero (S := S8192x128) hz2]

theorem sA1 (hc0 : cond0_0 i) (hc1 : ¬cond0_1 i) (x0 : Vec F S8192x128 .f32) (x1 : Vec F S8192x128 .i32) :
    sout0_A_1 c i a2 h2 a3 h3 a4 h4 a5 h5 a6 h6 a7 h7 hc0 hc1 x0 x1 = k0_pay10 x0 (k0_pay5 (F := F)) := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S8x128) hz2, View.readCov_unit_zero (S := S8x128) _ hz2]
  simp only [View.readAt_eq_ld, h2.read_unread, h3.read_unread, View.ld_unit_zero (S := S8192x128) hz2]

theorem sA2 (hc0 : cond0_0 i) (hc1 : ¬cond0_1 i) (x0 : Vec F S8192x128 .f32) (x1 : Vec F S8192x128 .i32) :
    sout0_A_2 c i a2 h2 a3 h3 a4 h4 a5 h5 a6 h6 a7 h7 hc0 hc1 x0 x1 = k0_pay11 x0 x1 (k0_pay6 (F := F)) := by
  unfold sout0_A_2
  rw [View.read_writes_eq_canon _ _ _ (scover0_A_2 c i a2 h2 a3 h3 a4 h4 a5 h5 a6 h6 a7 h7 hc0 hc1 x0 x1)]
  unfold kernelRun0_A
  dsimp only
  sl_unfold_words
  rw [View.canon_cons_unit_zero (S := S8x128) hz2, View.readCov_unit_zero (S := S8x128) _ hz2]
  simp only [View.readAt_eq_ld, h2.read_unread, h3.read_unread, View.ld_unit_zero (S := S8192x128) hz2]

/-! ## The last step also fills the output block: plane j holds accumulator j -/

/-- A plane of the output block: an [8,128] accumulator under two leading unit axes. -/
theorem pay1_apply (v : Vec F S8x128 .f32) (x : S1x1x8x128.Idx) : k0_pay1 v x = v (ValueIdx.ix2 (x 2) (x 3)) := by
  unfold k0_pay1
  refine shapeCast_apply v _ x (ValueIdx.ix2 (x 2) (x 3)) ?_
  rw [Shape.rowMajor_val_two, Shape.rowMajor_val_four]
  have h0 : (x 0).val < 1 := (x 0).isLt
  have h1 : (x 1).val < 1 := (x 1).isLt
  show (x 2).val * 128 + (x 3).val = (((x 0).val * 1 + (x 1).val) * 8 + (x 2).val) * 128 + (x 3).val
  omega

theorem pay2_apply (v : Vec F S8x128 .f32) (x : S1x1x8x128.Idx) : k0_pay2 v x = v (ValueIdx.ix2 (x 2) (x 3)) := pay1_apply v x

theorem pay3_apply (v : Vec F S8x128 .f32) (x : S1x1x8x128.Idx) : k0_pay3 v x = v (ValueIdx.ix2 (x 2) (x 3)) := pay1_apply v x

theorem oC2 (hc0 : ¬cond0_0 i) (hc1 : cond0_1 i) (x0 : Vec F S8192x128 .f32) (x1 : Vec F S8192x128 .i32) (xs0 xs1 xs2 : Vec F S8x128 .f32) :
    out0_C_2 c i a2 h2 a3 h3 a4 h4 a5 h5 a6 h6 a7 h7 hc0 hc1 x0 x1 xs0 xs1 xs2
      = stack3 (k0_pay9 x1 xs0) (k0_pay10 x0 xs1) (k0_pay11 x0 x1 xs2) := by
  unfold out0_C_2
  rw [View.read_writes_eq_canon _ _ _ (cover0_C_2 c i a2 h2 a3 h3 a4 h4 a5 h5 a6 h6 a7 h7 hc0 hc1 x0 x1 xs0 xs1 xs2)]
  unfold kernelRun0_C
  dsimp only
  sl_unfold_words
  simp only [View.readCov_unit_zero (S := S8x128) _ hz2, View.readAt_eq_ld, h2.read_unread, h3.read_unread, h5.read_unread, h6.read_unread, h7.read_unread,
    View.ld_unit_zero (S := S8x128) hz2, View.ld_unit_zero (S := S8192x128) hz2]
  funext y
  refine View.canon_apply_of_pieces (stack3 (k0_pay9 x1 xs0) (k0_pay10 x0 xs1) (k0_pay11 x0 x1 xs2)) _ ?_ y ?_
  · intro p hp x
    simp only [List.mem_cons, List.not_mem_nil, or_false] at hp
    rcases hp with rfl | rfl | rfl
    · have b1 : (x 1).val < 1 := (x 1).isLt
      show k0_pay3 (k0_pay11 x0 x1 xs2) x = stack3 (k0_pay9 x1 xs0) (k0_pay10 x0 xs1) (k0_pay11 x0 x1 xs2)
        ((Rect.unit (s := S1x3x8x128) ![0, 2, 0, 0] ![1, 1, 8, 128] inb_S1x3x8x128_S1x1x8x128_0_2_0_0).emb x)
      have e1 : (((Rect.unit (s := S1x3x8x128) ![0, 2, 0, 0] ![1, 1, 8, 128] inb_S1x3x8x128_S1x1x8x128_0_2_0_0).emb x) 1).val = 2 := by
        show 2 + 1 * (x 1).val = 2; omega
      rw [pay3_apply]
      unfold stack3
      rw [if_neg (by rw [e1]; omega), if_neg (by rw [e1]; omega)]
      refine congrArg _ (Shape.idx_ext₂ ?_ ?_)
      · show (x 2).val = 0 + 1 * (x 2).val; omega
      · show (x 3).val = 0 + 1 * (x 3).val; omega
    · have b1 : (x 1).val < 1 := (x 1).isLt
      show k0_pay2 (k0_pay10 x0 xs1) x = stack3 (k0_pay9 x1 xs0) (k0_pay10 x0 xs1) (k0_pay11 x0 x1 xs2)
        ((Rect.unit (s := S1x3x8x128) ![0, 1, 0, 0] ![1, 1, 8, 128] inb_S1x3x8x128_S1x1x8x128_0_1_0_0).emb x)
      have e1 : (((Rect.unit (s := S1x3x8x128) ![0, 1, 0, 0] ![1, 1, 8, 128] inb_S1x3x8x128_S1x1x8x128_0_1_0_0).emb x) 1).val = 1 := by
        show 1 + 1 * (x 1).val = 1; omega
      rw [pay2_apply]
      unfold stack3
      rw [if_neg (by rw [e1]; omega), if_pos (by rw [e1])]
      refine congrArg _ (Shape.idx_ext₂ ?_ ?_)
      · show (x 2).val = 0 + 1 * (x 2).val; omega
      · show (x 3).val = 0 + 1 * (x 3).val; omega
    · have b1 : (x 1).val < 1 := (x 1).isLt
      show k0_pay1 (k0_pay9 x1 xs0) x = stack3 (k0_pay9 x1 xs0) (k0_pay10 x0 xs1) (k0_pay11 x0 x1 xs2)
        ((Rect.unit (s := S1x3x8x128) ![0, 0, 0, 0] ![1, 1, 8, 128] inb_S1x3x8x128_S1x1x8x128_0_0_0_0).emb x)
      have e1 : (((Rect.unit (s := S1x3x8x128) ![0, 0, 0, 0] ![1, 1, 8, 128] inb_S1x3x8x128_S1x1x8x128_0_0_0_0).emb x) 1).val = 0 := by
        show 0 + 1 * (x 1).val = 0; omega
      rw [pay1_apply]
      unfold stack3
      rw [if_pos (by rw [e1])]
      refine congrArg _ (Shape.idx_ext₂ ?_ ?_)
      · show (x 2).val = 0 + 1 * (x 2).val; omega
      · show (x 3).val = 0 + 1 * (x 3).val; omega
  · have b0 : (y 0).val < 1 := (y 0).isLt
    have b1 : (y 1).val < 3 := (y 1).isLt
    have b2 : (y 2).val < 8 := (y 2).isLt
    have b3 : (y 3).val < 128 := (y 3).isLt
    rcases (by omega : (y 1).val = 0 ∨ (y 1).val = 1 ∨ (y 1).val = 2) with h | h | h
    · refine ⟨_, List.mem_cons_of_mem _ (List.mem_cons_of_mem _ (List.mem_singleton_self _)), ?_⟩
      rw [Rect.mem_set_unit]
      intro a
      fin_cases a <;> simp <;> omega
    · refine ⟨_, List.mem_cons_of_mem _ (List.mem_cons_self), ?_⟩
      rw [Rect.mem_set_unit]
      intro a
      fin_cases a <;> simp <;> omega
    · refine ⟨_, List.mem_cons_self, ?_⟩
      rw [Rect.mem_set_unit]
      intro a
      fin_cases a <;> simp <;> omega

end Cert.KernelIdeal.KV

end
-- ==== Proof.KAddend.lean ====
import proofs.«421495_j77902116815085_3_alg».proof.Proof.KPieces
import proofs.«421495_j77902116815085_3_alg».proof.Proof.Spec
import Idealize.ShloMosaic.PureOps.Ideal.Laws

set_option maxRecDepth 16384

noncomputable section

/-! One grid point's contribution to each accumulator entry, over the extended reals.

A block is [8192,128]; the body views it as [1024,8,128] and sums over the leading axis, so entry (s, l) of an
accumulator gains the sum over b < 1024 of the block's entries at row 8·b + s, column l: of the labels read as
numbers, of min(p, 1 - p), and of their products. -/

namespace Cert.KernelIdeal.KV

open Cert.KernelIdeal Cert.KernelIdeal.Gen
open Idealize.ShloMosaic Idealize.ShloMosaic.TcCoe
open Idealize.SL Idealize.SL.Sem

/-- Row 8·b + s of a block. -/
abbrev brow (b : Fin 1024) (s : Fin 8) : Fin 8192 := ⟨b.val * 8 + s.val, by omega⟩

/-- The lane reduction of a block viewed [1024,8,128], at entry (s, l): the sum over the 1024 row groups. -/
theorem groupsum_apply (v : FVec Ideal S8192x128 .f32) (s : Fin 8) (l : Fin 128) :
    multiReduction (F := Ideal) .add [0] S8x128 (shapeCast S1024x8x128 v shapeCasts_S8192x128_S1024x8x128) 0x00000000#32
        reduces_S1024x8x128_S8x128 (.inl rfl) rfl (ValueIdx.ix2 s l)
      = ∑ b : Fin 1024, v (ValueIdx.ix2 (brow b s) l) := by
  refine (Ideal.multiReduction_add_single _ 0x00000000#32 reduces_S1024x8x128_S8x128 (.inl rfl) rfl (ValueIdx.ix2 s l)).trans ?_
  refine Finset.sum_congr rfl fun b _ => ?_
  refine shapeCast_apply v _ _ (ValueIdx.ix2 (brow b s) l) ?_
  rw [Shape.rowMajor_val_two, Shape.rowMajor_val_three]
  rfl

/-- A label block read as numbers, entry by entry. -/
theorem labnum_apply (y : Vec Ideal S8192x128 .i32) (i : S8192x128.Idx) :
    k0_pay7 (F := Ideal) y i = (((y i).toInt : ℝ) : EReal) := by
  unfold k0_pay7
  rw [shapeCast_self]
  rfl

/-- The smaller of a prediction and its complement, entry by entry. -/
theorem small_apply (x : Vec Ideal S8192x128 .f32) (i : S8192x128.Idx) :
    k0_pay8 (F := Ideal) x i = min (x i) (Cert.F1.one - x i) := by
  unfold k0_pay8
  rw [shapeCast_self]
  rfl

/-- What one point adds to the label accumulator. -/
theorem pay9_apply (y : Vec Ideal S8192x128 .i32) (acc : Vec Ideal S8x128 .f32) (s : Fin 8) (l : Fin 128) :
    k0_pay9 (F := Ideal) y acc (ValueIdx.ix2 s l)
      = acc (ValueIdx.ix2 s l) + ∑ b : Fin 1024, (((y (ValueIdx.ix2 (brow b s) l)).toInt : ℝ) : EReal) := by
  unfold k0_pay9
  rw [shapeCast_self]
  refine (ValueIdx.addf_apply _ _ _).trans ?_
  refine congrArg (acc (ValueIdx.ix2 s l) + ·) ?_
  refine (groupsum_apply (k0_pay7 y) s l).trans ?_
  exact Finset.sum_congr rfl fun b _ => labnum_apply y _

/-- What one point adds to the accumulator of the smaller values. -/
theorem pay10_apply (x : Vec Ideal S8192x128 .f32) (acc : Vec Ideal S8x128 .f32) (s : Fin 8) (l : Fin 128) :
    k0_pay10 (F := Ideal) x acc (ValueIdx.ix2 s l)
      = acc (ValueIdx.ix2 s l) + ∑ b : Fin 1024, min (x (ValueIdx.ix2 (brow b s) l)) (Cert.F1.one - x (ValueIdx.ix2 (brow b s) l)) := by
  unfold k0_pay10
  rw [shapeCast_self]
  refine (ValueIdx.addf_apply _ _ _).trans ?_
  refine congrArg (acc (ValueIdx.ix2 s l) + ·) ?_
  refine (groupsum_apply (k0_pay8 x) s l).trans ?_
  exact Finset.sum_congr rfl fun b _ => small_apply x _

/-- What one point adds to the accumulator of the products. -/
theorem pay11_apply (x : Vec Ideal S8192x128 .f32) (y : Vec Ideal S8192x128 .i32) (acc : Vec Ideal S8x128 .f32) (s : Fin 8) (l : Fin 128) :
    k0_pay11 (F := Ideal) x y acc (ValueIdx.ix2 s l)
      = acc (ValueIdx.ix2 s l) + ∑ b : Fin 1024, (((y (ValueIdx.ix2 (brow b s) l)).toInt : ℝ) : EReal)
          * min (x (ValueIdx.ix2 (brow b s) l)) (Cert.F1.one - x (ValueIdx.ix2 (brow b s) l)) := by
  unfold k0_pay11
  rw [shapeCast_self]
  refine (ValueIdx.addf_apply _ _ _).trans ?_
  refine congrArg (acc (ValueIdx.ix2 s l) + ·) ?_
  refine (groupsum_apply (mulf (k0_pay7 y) (k0_pay8 x)) s l).trans ?_
  refine Finset.sum_congr rfl fun b _ => ?_
  refine (ValueIdx.mulf_apply _ _ _).trans ?_
  rw [labnum_apply, small_apply]

/-- The accumulators' reset value is zero. -/
theorem zero4_apply (j : S8x128.Idx) : k0_pay4 (F := Ideal) j = 0 := by
  unfold k0_pay4
  rw [shapeCast_self]
  exact Ideal.ofBits_zero_f32
theorem zero5_apply (j : S8x128.Idx) : k0_pay5 (F := Ideal) j = 0 := zero4_apply j
theorem zero6_apply (j : S8x128.Idx) : k0_pay6 (F := Ideal) j = 0 := zero4_apply j

end Cert.KernelIdeal.KV

end
-- ==== Proof.KAcc.lean ====
import proofs.«421495_j77902116815085_3_alg».proof.Proof.KPieces

set_option maxRecDepth 16384

noncomputable section

/-! The accumulators along a row of sixteen grid points.

The 32 grid points are two rows of sixteen.  Within a row the three accumulators start, at the row's first point,
from zero plus that point's partial sums, and at each later point gain that point's partial sums; so after the row's
last point each holds the sum of the sixteen points' partial sums, which is what that point copies to the output. -/

namespace Cert.KernelIdeal.KV

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ)

/-- The block of predictions and the block of labels the body sees at a grid point. -/
abbrev xblk (c : Dev nD) (t : Fin cfg0.N) : Vec F S8192x128 .f32 := iblk m c 0 t
abbrev yblk (c : Dev nD) (t : Fin cfg0.N) : Vec F S8192x128 .i32 := iblk m c 1 t

/-- At the first point of a row: zero plus this point's partial sums. -/
theorem acc_first (c : Dev nD) (t : Fin cfg0.N) (h0 : t.val % 16 = 0) :
    (outsAt0 m c t.val t.isLt).2
      = (k0_pay9 (yblk m c t) (k0_pay4 (F := F)), k0_pay10 (xblk m c t) (k0_pay5 (F := F)),
          k0_pay11 (xblk m c t) (yblk m c t) (k0_pay6 (F := F))) := by
  have h1 : ¬t.val % 16 = 15 := by omega
  rw [outsAt0_A m c t h0 h1]
  dsimp only
  rw [sA0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    sA1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    sA2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)]

/-- At every other point: what the point before left plus this point's partial sums. -/
theorem acc_step (c : Dev nD) (t : Fin cfg0.N) (h0 : ¬t.val % 16 = 0) :
    (outsAt0 m c t.val t.isLt).2
      = (k0_pay9 (yblk m c t) (outsAt0 m c (t.val - 1) (Nat.lt_of_le_of_lt (Nat.sub_le _ _) t.isLt)).2.1, k0_pay10 (xblk m c t) (outsAt0 m c (t.val - 1) (Nat.lt_of_le_of_lt (Nat.sub_le _ _) t.isLt)).2.2.1,
          k0_pay11 (xblk m c t) (yblk m c t) (outsAt0 m c (t.val - 1) (Nat.lt_of_le_of_lt (Nat.sub_le _ _) t.isLt)).2.2.2) := by
  by_cases h1 : t.val % 16 = 15
  · rw [outsAt0_C m c t h0 h1]
    dsimp only
    rw [sC0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sC1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sC2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  · rw [outsAt0_B m c t h0 h1]
    dsimp only
    rw [sB0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sB1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sB2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]

/-- At the last point of a row the output block's three planes are the three accumulators as that point leaves them. -/
theorem out_last (c : Dev nD) (t : Fin cfg0.N) (h1 : t.val % 16 = 15) :
    (outsAt0 m c t.val t.isLt).1
      = stack3 (outsAt0 m c t.val t.isLt).2.1 (outsAt0 m c t.val t.isLt).2.2.1 (outsAt0 m c t.val t.isLt).2.2.2 := by
  have h0 : ¬t.val % 16 = 0 := by omega
  have e := acc_step m c t h0
  rw [show (outsAt0 m c t.val t.isLt).2.1 = _ from congrArg (fun p => p.1) e,
    show (outsAt0 m c t.val t.isLt).2.2.1 = _ from congrArg (fun p => p.2.1) e,
    show (outsAt0 m c t.val t.isLt).2.2.2 = _ from congrArg (fun p => p.2.2) e]
  rw [outsAt0_C m c t h0 h1]
  dsimp only
  exact oC2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.KV

end
-- ==== Proof.KBlocks.lean ====
import proofs.«421495_j77902116815085_3_alg».proof.Proof.KAcc

set_option maxRecDepth 16384

noncomputable section

/-! A block entry is an entry of the flat argument array.

Both arguments are flat arrays of 2^25 entries, reshaped row-major to [262144,128] before the region; grid point t
sees rows 8192·t … 8192·t + 8191.  So entry (r, l) of the block at point t is flat entry (8192·t + r)·128 + l. -/

namespace Cert.KernelIdeal.KV

open Cert.KernelIdeal Cert.KernelIdeal.Gen
open Idealize.ShloMosaic Idealize.ShloMosaic.TcCoe Idealize.ShloMosaic.Tactic
open Idealize.ShloMosaic.StableHlo
open Idealize.SL Idealize.SL.Sem
open Idealize.ShloMosaic.Pipeline (Dat Cfg Window)

variable {F : FTy → Type} [FloatOps F]
variable (m : (ℓ : Loc nD τ sig) → Buf (Elt F) ℓ)

/-- The block index maps over the grid: both inputs' blocks move down the rows with the point; the output's block is
    the row of sixteen points the point lies in. -/
theorem widx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 4) = t.val / 16 ∧ win0_2.index t (1 : Fin 4) = 0
    ∧ win0_2.index t (2 : Fin 4) = 0 ∧ win0_2.index t (3 : Fin 4) = 0 :=
  (by decide +kernel : ∀ t : Fin grid0.N, _)

theorem lt32 (t : Fin cfg0.N) : t.val < 32 := lt_of_lt_of_eq t.isLt (show cfg0.N = 32 from N_0)

/-- The flat position of entry (r, l) of the block at point t. -/
abbrev flatIx (t : Fin cfg0.N) (r : Fin 8192) (l : Fin 128) : Fin 33554432 :=
  ⟨(t.val * 8192 + r.val) * 128 + l.val, by have := lt32 t; omega⟩

/-- Before the region the predictions are the flat argument reshaped to rows of 128. -/
theorem V_v0 (c : Dev nD) : (V m c main_v0 : FVec F S262144x128 .f32)
    = shapeCast S262144x128 (m ((c : Thread nD τ).loc main_arg0)) shapeCasts_S33554432_S262144x128 := by
  show StableHlo.after hostOps0 (fun b => m (c, b)) (Proc.devRef .tc main_v0) = _
  after_results
  rfl

/-- And the labels likewise. -/
theorem V_v1 (c : Dev nD) : (V m c main_v1 : IVec S262144x128 32)
    = shapeCast S262144x128 (m ((c : Thread nD τ).loc main_arg1)) shapeCasts_S33554432_S262144x128 := by
  show StableHlo.after hostOps0 (fun b => m (c, b)) (Proc.devRef .tc main_v1) = _
  after_results
  rfl

/-- An entry of the prediction block at point t is the flat argument's entry at its flat position. -/
theorem xblk_apply (c : Dev nD) (t : Fin cfg0.N) (r : Fin 8192) (l : Fin 128) :
    xblk m c t (ValueIdx.ix2 r l) = (m ((c : Thread nD τ).loc main_arg0) : FVec F S33554432 .f32) (ValueIdx.ix1 (flatIx t r l)) := by
  obtain ⟨e0, e1, -⟩ := widx t
  show iblk m c 0 t (ValueIdx.ix2 r l) = _
  unfold iblk
  rw [View.read_apply]
  show V m c main_v0 _ = _
  rw [V_v0]
  refine shapeCast_apply _ _ _ (ValueIdx.ix1 (flatIx t r l)) ?_
  rw [Shape.rowMajor_val_one, Shape.rowMajor_val_two]
  show (t.val * 8192 + r.val) * 128 + l.val = (win0_0.index t (0 : Fin 2) * 8192 + 1 * r.val) * 128 + (win0_0.index t (1 : Fin 2) * 128 + 1 * l.val)
  rw [e0, e1]; omega

/-- The same for the label block. -/
theorem yblk_apply (c : Dev nD) (t : Fin cfg0.N) (r : Fin 8192) (l : Fin 128) :
    yblk m c t (ValueIdx.ix2 r l) = (m ((c : Thread nD τ).loc main_arg1) : IVec S33554432 32) (ValueIdx.ix1 (flatIx t r l)) := by
  obtain ⟨-, -, e0, e1, -⟩ := widx t
  show iblk m c 1 t (ValueIdx.ix2 r l) = _
  unfold iblk
  rw [View.read_apply]
  show V m c main_v1 _ = _
  rw [V_v1]
  refine shapeCast_apply _ _ _ (ValueIdx.ix1 (flatIx t r l)) ?_
  rw [Shape.rowMajor_val_one, Shape.rowMajor_val_two]
  show (t.val * 8192 + r.val) * 128 + l.val = (win0_1.index t (0 : Fin 2) * 8192 + 1 * r.val) * 128 + (win0_1.index t (1 : Fin 2) * 128 + 1 * l.val)
  rw [e0, e1]; omega

end Cert.KernelIdeal.KV

end
-- ==== Proof.KFold.lean ====
import proofs.«421495_j77902116815085_3_alg».proof.Proof.KAddend
import proofs.«421495_j77902116815085_3_alg».proof.Proof.KBlocks

set_option maxRecDepth 16384

noncomputable section

/-! The accumulators after a row of sixteen points, in terms of the flat argument arrays.

Write f for one of the three per-entry terms of the flat arrays (the label as a number, min(p, 1 - p), their product),
extended by zero past the arrays' end.  Point n adds to accumulator entry (s, l) the sum over b < 1024 of f at the flat
position (8192·n + 8·b + s)·128 + l; after the row's sixteenth point the accumulator holds the sum of the sixteen. -/

namespace Cert.KernelIdeal.KV

open Cert.KernelIdeal Cert.KernelIdeal.Gen
open Idealize.ShloMosaic Idealize.ShloMosaic.TcCoe
open Idealize.SL Idealize.SL.Sem

variable (m : (ℓ : Loc nD τ sig) → Buf (Elt Ideal) ℓ)

/-- The two arguments as flat arrays. -/
abbrev argX (c : Dev nD) : FVec Ideal Cert.F1.SN .f32 := m ((c : Thread nD τ).loc main_arg0)
abbrev argY (c : Dev nD) : IVec Cert.F1.SN 32 := m ((c : Thread nD τ).loc main_arg1)

/-- The per-entry terms, zero past the end of the arrays. -/
def labN (y : IVec Cert.F1.SN 32) (n : ℕ) : EReal := if h : n < 33554432 then Cert.F1.lab y ⟨n, h⟩ else 0
def smallN (x : FVec Ideal Cert.F1.SN .f32) (n : ℕ) : EReal := if h : n < 33554432 then Cert.F1.small x ⟨n, h⟩ else 0
def prodN (x : FVec Ideal Cert.F1.SN .f32) (y : IVec Cert.F1.SN 32) (n : ℕ) : EReal :=
  if h : n < 33554432 then Cert.F1.lab y ⟨n, h⟩ * Cert.F1.small x ⟨n, h⟩ else 0

/-- What point n adds to an accumulator entry, from a flat per-entry term. -/
def addend (f : ℕ → EReal) (n : ℕ) (j : S8x128.Idx) : EReal :=
  ∑ b : Fin 1024, f ((n * 8192 + (b.val * 8 + (j 0).val)) * 128 + (j 1).val)

theorem pay9_point (c : Dev nD) (t : Fin cfg0.N) (acc : Vec Ideal S8x128 .f32) (j : S8x128.Idx) :
    k0_pay9 (F := Ideal) (yblk m c t) acc j = acc j + addend (labN (argY m c)) t.val j := by
  obtain ⟨s, l, rfl⟩ : ∃ (s : Fin 8) (l : Fin 128), j = ValueIdx.ix2 s l := ⟨j 0, j 1, ValueIdx.eq_ix2 j⟩
  rw [pay9_apply]
  refine congrArg (acc (ValueIdx.ix2 s l) + ·) (Finset.sum_congr rfl fun b _ => ?_)
  rw [yblk_apply]
  show _ = labN (argY m c) ((t.val * 8192 + (b.val * 8 + s.val)) * 128 + l.val)
  unfold labN
  rw [dif_pos (flatIx t (brow b s) l).isLt]
  rfl

theorem pay10_point (c : Dev nD) (t : Fin cfg0.N) (acc : Vec Ideal S8x128 .f32) (j : S8x128.Idx) :
    k0_pay10 (F := Ideal) (xblk m c t) acc j = acc j + addend (smallN (argX m c)) t.val j := by
  obtain ⟨s, l, rfl⟩ : ∃ (s : Fin 8) (l : Fin 128), j = ValueIdx.ix2 s l := ⟨j 0, j 1, ValueIdx.eq_ix2 j⟩
  rw [pay10_apply]
  refine congrArg (acc (ValueIdx.ix2 s l) + ·) (Finset.sum_congr rfl fun b _ => ?_)
  rw [xblk_apply]
  show _ = smallN (argX m c) ((t.val * 8192 + (b.val * 8 + s.val)) * 128 + l.val)
  unfold smallN
  rw [dif_pos (flatIx t (brow b s) l).isLt]
  rfl

theorem pay11_point (c : Dev nD) (t : Fin cfg0.N) (acc : Vec Ideal S8x128 .f32) (j : S8x128.Idx) :
    k0_pay11 (F := Ideal) (xblk m c t) (yblk m c t) acc j = acc j + addend (prodN (argX m c) (argY m c)) t.val j := by
  obtain ⟨s, l, rfl⟩ : ∃ (s : Fin 8) (l : Fin 128), j = ValueIdx.ix2 s l := ⟨j 0, j 1, ValueIdx.eq_ix2 j⟩
  rw [pay11_apply]
  refine congrArg (acc (ValueIdx.ix2 s l) + ·) (Finset.sum_congr rfl fun b _ => ?_)
  rw [xblk_apply, yblk_apply]
  show _ = prodN (argX m c) (argY m c) ((t.val * 8192 + (b.val * 8 + s.val)) * 128 + l.val)
  unfold prodN
  rw [dif_pos (flatIx t (brow b s) l).isLt]
  rfl

/-- Accumulator 0 after the last point of a row: the sum of the row's sixteen addends. -/
theorem acc0_last (c : Dev nD) (t : Fin cfg0.N) (h15 : t.val % 16 = 15) (j : S8x128.Idx) :
    (outsAt0 m c t.val t.isLt).2.1 j = ∑ st ∈ Finset.range 16, addend (labN (argY m c)) (16 * (t.val / 16) + st) j := by
  have h' : 16 * (t.val / 16) + t.val % 16 < cfg0.N := by rw [Nat.div_add_mod]; exact t.isLt
  have e := Pipeline.eq_accAt_of_mod (N := cfg0.N) (fun n h => (outsAt0 m c n h).2.1) 16
    (fun n h => k0_pay9 (F := Ideal) (yblk m c ⟨n, h⟩) (k0_pay4 (F := Ideal)))
    (fun n h a => k0_pay9 (F := Ideal) (yblk m c ⟨n, h⟩) a)
    (fun n h h0 => congrArg (fun p => p.1) (acc_first m c ⟨n, h⟩ h0))
    (fun n h hs => congrArg (fun p => p.1) (acc_step m c ⟨n + 1, h⟩ hs))
    (by norm_num) t.val t.isLt h'
  have e2 := Pipeline.accAt_add_apply (N := cfg0.N)
    (fun n h => k0_pay9 (F := Ideal) (yblk m c ⟨n, h⟩) (k0_pay4 (F := Ideal)))
    (fun n h a => k0_pay9 (F := Ideal) (yblk m c ⟨n, h⟩) a)
    (fun _ => (0 : EReal)) (addend (labN (argY m c))) (16 * (t.val / 16)) 15
    (fun h i => by rw [pay9_point m c ⟨_, h⟩, zero4_apply])
    (fun n h a i _ _ => pay9_point m c ⟨n, h⟩ a i)
    (t.val % 16) (by omega) h' j
  refine (congrFun e j).trans (e2.trans ?_)
  rw [h15, zero_add]

/-- Accumulator 1 after the last point of a row: the sum of the row's sixteen addends. -/
theorem acc1_last (c : Dev nD) (t : Fin cfg0.N) (h15 : t.val % 16 = 15) (j : S8x128.Idx) :
    (outsAt0 m c t.val t.isLt).2.2.1 j = ∑ st ∈ Finset.range 16, addend (smallN (argX m c)) (16 * (t.val / 16) + st) j := by
  have h' : 16 * (t.val / 16) + t.val % 16 < cfg0.N := by rw [Nat.div_add_mod]; exact t.isLt
  have e := Pipeline.eq_accAt_of_mod (N := cfg0.N) (fun n h => (outsAt0 m c n h).2.2.1) 16
    (fun n h => k0_pay10 (F := Ideal) (xblk m c ⟨n, h⟩) (k0_pay5 (F := Ideal)))
    (fun n h a => k0_pay10 (F := Ideal) (xblk m c ⟨n, h⟩) a)
    (fun n h h0 => congrArg (fun p => p.2.1) (acc_first m c ⟨n, h⟩ h0))
    (fun n h hs => congrArg (fun p => p.2.1) (acc_step m c ⟨n + 1, h⟩ hs))
    (by norm_num) t.val t.isLt h'
  have e2 := Pipeline.accAt_add_apply (N := cfg0.N)
    (fun n h => k0_pay10 (F := Ideal) (xblk m c ⟨n, h⟩) (k0_pay5 (F := Ideal)))
    (fun n h a => k0_pay10 (F := Ideal) (xblk m c ⟨n, h⟩) a)
    (fun _ => (0 : EReal)) (addend (smallN (argX m c))) (16 * (t.val / 16)) 15
    (fun h i => by rw [pay10_point m c ⟨_, h⟩, zero5_apply])
    (fun n h a i _ _ => pay10_point m c ⟨n, h⟩ a i)
    (t.val % 16) (by omega) h' j
  refine (congrFun e j).trans (e2.trans ?_)
  rw [h15, zero_add]

/-- Accumulator 2 after the last point of a row: the sum of the row's sixteen addends. -/
theorem acc2_last (c : Dev nD) (t : Fin cfg0.N) (h15 : t.val % 16 = 15) (j : S8x128.Idx) :
    (outsAt0 m c t.val t.isLt).2.2.2 j = ∑ st ∈ Finset.range 16, addend (prodN (argX m c) (argY m c)) (16 * (t.val / 16) + st) j := by
  have h' : 16 * (t.val / 16) + t.val % 16 < cfg0.N := by rw [Nat.div_add_mod]; exact t.isLt
  have e := Pipeline.eq_accAt_of_mod (N := cfg0.N) (fun n h => (outsAt0 m c n h).2.2.2) 16
    (fun n h => k0_pay11 (F := Ideal) (xblk m c ⟨n, h⟩) (yblk m c ⟨n, h⟩) (k0_pay6 (F := Ideal)))
    (fun n h a => k0_pay11 (F := Ideal) (xblk m c ⟨n, h⟩) (yblk m c ⟨n, h⟩) a)
    (fun n h h0 => congrArg (fun p => p.2.2) (acc_first m c ⟨n, h⟩ h0))
    (fun n h hs => congrArg (fun p => p.2.2) (acc_step m c ⟨n + 1, h⟩ hs))
    (by norm_num) t.val t.isLt h'
  have e2 := Pipeline.accAt_add_apply (N := cfg0.N)
    (fun n h => k0_pay11 (F := Ideal) (xblk m c ⟨n, h⟩) (yblk m c ⟨n, h⟩) (k0_pay6 (F := Ideal)))
    (fun n h a => k0_pay11 (F := Ideal) (xblk m c ⟨n, h⟩) (yblk m c ⟨n, h⟩) a)
    (fun _ => (0 : EReal)) (addend (prodN (argX m c) (argY m c))) (16 * (t.val / 16)) 15
    (fun h i => by rw [pay11_point m c ⟨_, h⟩, zero6_apply])
    (fun n h a i _ _ => pay11_point m c ⟨n, h⟩ a i)
    (t.val % 16) (by omega) h' j
  refine (congrFun e j).trans (e2.trans ?_)
  rw [h15, zero_add]

end Cert.KernelIdeal.KV

end
-- ==== Proof.KTail.lean ====
import proofs.«421495_j77902116815085_3_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

/-! The scalar arithmetic after the region.

After the region the [2,3,8,128] array of partial sums is collapsed plane by plane (plane j, for j = 0, 1, 2, summed
over its 2·8·128 entries) into the three totals T, Q, B, and the loss is computed from them by the same chain of scalar
operations twice, once per class.  Here that chain is named once, as a function of the region's output array, and the
program's final buffer is shown to hold it. -/

namespace Cert.KernelIdeal.KV

open Cert.KernelIdeal Cert.KernelIdeal.Gen
open Idealize.ShloMosaic Idealize.ShloMosaic.TcCoe Idealize.ShloMosaic.Tactic
open Idealize.ShloMosaic.StableHlo
open Idealize.SL Idealize.SL.Sem
open Idealize.ShloMosaic.Pipeline (Dat Cfg Window)

variable {F : FTy → Type} [FloatOps F]

/-- The total of one plane of the array of partial sums: the plane sliced out, its unit axis dropped, every entry added
    to the zero initial value. -/
def planeSum (out : FVec F S2x3x8x128 .f32) (off : Fin 4 → Nat) (hs : S2x3x8x128.Slices off S2x1x8x128) : FVec F S_ .f32 :=
  Host.reduceAdd (shapeCast S2x8x128 (extractStridedSlice S2x1x8x128 off out hs) shapeCasts_S2x1x8x128_S2x8x128)
    (constant S_ .f32 0x00000000#32) reducesTo_S2x8x128_S_d0_1_2 h_S_

/-- One class's clipped score from its true positives, false positives and false negatives. -/
def scoreK (tp fp fn : FVec F S_ .f32) : FVec F S_ .f32 :=
  minimumf (constant S_ .f32 0x3F7FFFFE#32)
    (maximumf (constant S_ .f32 0x33D6BF95#32)
      (Host.divf
        (mulf (constant S_ .f32 0x40000000#32)
          (mulf (Host.divf tp (addf (addf tp fp) (constant S_ .f32 0x33D6BF95#32)))
            (Host.divf tp (addf (addf tp fn) (constant S_ .f32 0x33D6BF95#32)))))
        (addf (addf (Host.divf tp (addf (addf tp fp) (constant S_ .f32 0x33D6BF95#32)))
            (Host.divf tp (addf (addf tp fn) (constant S_ .f32 0x33D6BF95#32))))
          (constant S_ .f32 0x33D6BF95#32))))

/-- The loss from the three totals. -/
def lossK (T Q B : FVec F S_ .f32) : FVec F S_ .f32 :=
  subf (constant S_ .f32 0x3F800000#32)
    (mulf
      (addf (scoreK (subf Q B) B (subf (subf (constant S_ .f32 0x4C000000#32) T) (subf Q B)))
        (scoreK (subf T B) (subf (subf (constant S_ .f32 0x4C000000#32) T) (subf Q B)) B))
      (constant S_ .f32 0x3F000000#32))

/-- The loss as a function of the region's output array. -/
def tailK (out : FVec F S2x3x8x128 .f32) : FVec F S_ .f32 :=
  lossK (planeSum out ![0, 0, 0, 0] slices_S2x3x8x128_S2x1x8x128_0_0_0_0)
    (planeSum out ![0, 1, 0, 0] slices_S2x3x8x128_S2x1x8x128_0_1_0_0)
    (planeSum out ![0, 2, 0, 0] slices_S2x3x8x128_S2x1x8x128_0_2_0_0)

variable (m : (ℓ : Loc nD τ sig) → Buf (Elt F) ℓ)

/-- The array of partial sums as the region leaves it. -/
abbrev outArr (c : Dev nD) : FVec F S2x3x8x128 .f32 := (dats m 0 c).arrAt 2 cfg0.N

set_option maxHeartbeats 4000000 in
/-- After the lines that follow the region the result buffer holds the loss of the region's output array. -/
theorem tail_eq (c : Dev nD) :
    Pipeline.afterTail₀ cfgs (dats m) 0 (V0 m) [hostOps1, hostOps1_1, hostOps1_2, hostOps1_3, hostOps1_4] c main_v42
      = tailK (outArr m c) := by
  unfold Pipeline.afterTail₀
  simp only [hostOps1, hostOps1_1, hostOps1_2, hostOps1_3, hostOps1_4, List.flatten_cons, List.flatten_nil, List.append_nil, List.cons_append, List.nil_append]
  after_results_simp
  have e : Pipeline.withArrays (cfgs 0).spec c (V0 m c) (fun w => (dats m 0 c).arrAt w (cfgs 0).N) (Proc.tc.devRef main_v2)
      = outArr m c := Pipeline.withArrays_arr spec0 launch0.win.arr_inj c _ _ 2
  rw [e]
  simp only [TRef.ofBuf, TRef.toBuf, cast_eq]
  rfl

end Cert.KernelIdeal.KV

end
-- ==== Proof.KArray.lean ====
import proofs.«421495_j77902116815085_3_alg».proof.Proof.KFold
import proofs.«421495_j77902116815085_3_alg».proof.Proof.KTail

set_option maxRecDepth 16384

noncomputable section

/-! The array of partial sums after the region.

Entry (g, k, s, l) of the [2,3,8,128] array is, for the k-th per-entry term f, the sum over the sixteen points of row g
of what each point adds at (s, l).  Only the last point of a row writes its block back, and that block is the row's
slab g of the array; the two rows' slabs are the whole array. -/

namespace Cert.KernelIdeal.KV

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ)

/-- A row's total at an accumulator entry. -/
def rowTotal (f : ℕ → EReal) (g : ℕ) (j : S8x128.Idx) : EReal :=
  ∑ st ∈ Finset.range 16, addend f (16 * g + st) j

/-- The array of partial sums as one function of the two flat arguments. -/
def outG (c : Dev nD) : FVec Ideal S2x3x8x128 .f32 := fun i =>
  if (i 1).val = 0 then rowTotal (labN (argY m c)) (i 0).val (ValueIdx.ix2 (i 2) (i 3))
  else if (i 1).val = 1 then rowTotal (smallN (argX m c)) (i 0).val (ValueIdx.ix2 (i 2) (i 3))
  else rowTotal (prodN (argX m c) (argY m c)) (i 0).val (ValueIdx.ix2 (i 2) (i 3))

/-- What a row's last point writes back is its slab of that function. -/
theorem flushed_eq (c : Dev nD) (t : Fin cfg0.N) (hf : (cfg0.win 2).flush t = true) :
    (dats m 0 c).flushed 2 t = ((cfg0.win 2).blk t).view.read (Elt Ideal) (outG m c) := by
  have h15 : t.val % 16 = 15 := (flush0_2 t).mp hf
  obtain ⟨-, -, -, -, e0, e1, e2, e3⟩ := widx t
  show (cfg0.win 2).cut (grid0.coords t) ((dats m 0 c).after 2 t) = _
  rw [after0_2, out_last m c t h15]
  funext y
  show stack3 (F := Ideal) _ _ _ y = outG m c (((cfg0.win 2).blk t).view.emb y)
  have b0 : (y 0).val < 1 := (y 0).isLt
  have c0 : ((((cfg0.win 2).blk t).view.emb y) 0).val = t.val / 16 := by
    show win0_2.index t (0 : Fin 4) * 1 + 1 * (y 0).val = _; rw [e0]; omega
  have c1 : ((((cfg0.win 2).blk t).view.emb y) 1).val = (y 1).val := by
    show win0_2.index t (1 : Fin 4) * 3 + 1 * (y 1).val = _; rw [e1]; omega
  have c2 : ((((cfg0.win 2).blk t).view.emb y) 2).val = (y 2).val := by
    show win0_2.index t (2 : Fin 4) * 8 + 1 * (y 2).val = _; rw [e2]; omega
  have c3 : ((((cfg0.win 2).blk t).view.emb y) 3).val = (y 3).val := by
    show win0_2.index t (3 : Fin 4) * 128 + 1 * (y 3).val = _; rw [e3]; omega
  have cj : (ValueIdx.ix2 ((((cfg0.win 2).blk t).view.emb y) 2) ((((cfg0.win 2).blk t).view.emb y) 3) : S8x128.Idx)
      = ValueIdx.ix2 (y 2) (y 3) := Shape.idx_ext₂ c2 c3
  unfold stack3 outG
  rw [c0, c1, cj]
  by_cases h0 : (y 1).val = 0
  · rw [if_pos h0, if_pos h0]; exact acc0_last m c t h15 _
  · rw [if_neg h0, if_neg h0]
    by_cases h1 : (y 1).val = 1
    · rw [if_pos h1, if_pos h1]; exact acc1_last m c t h15 _
    · rw [if_neg h1, if_neg h1]; exact acc2_last m c t h15 _

/-- Every entry of the array lies in the slab of its row's last point. -/
theorem cover (c : Dev nD) (i : S2x3x8x128.Idx) :
    ∃ t : Fin cfg0.N, (cfg0.win 2).flush t = true ∧ i ∈ ((cfg0.win 2).blk t).view.set := by
  have b0 : (i 0).val < 2 := (i 0).isLt
  have b1 : (i 1).val < 3 := (i 1).isLt
  have b2 : (i 2).val < 8 := (i 2).isLt
  have b3 : (i 3).val < 128 := (i 3).isLt
  have hN : cfg0.N = 32 := N_0
  let t : Fin cfg0.N := ⟨16 * (i 0).val + 15, by rw [hN]; omega⟩
  have ht : t.val = 16 * (i 0).val + 15 := rfl
  obtain ⟨-, -, -, -, e0, e1, e2, e3⟩ := widx t
  refine ⟨t, (flush0_2 t).mpr (by rw [ht]; omega), ?_⟩
  show i ∈ ((View.whole main_v2).slice (win0_2.rect t)).set
  rw [View.set_slice_whole, Rect.mem_set_unit]
  intro a
  match a with
  | ⟨0, _⟩ =>
    show win0_2.index t (0 : Fin 4) * 1 ≤ (i 0).val ∧ (i 0).val < win0_2.index t (0 : Fin 4) * 1 + 1
    rw [e0, ht]; omega
  | ⟨1, _⟩ =>
    show win0_2.index t (1 : Fin 4) * 3 ≤ (i 1).val ∧ (i 1).val < win0_2.index t (1 : Fin 4) * 3 + 3
    rw [e1]; omega
  | ⟨2, _⟩ =>
    show win0_2.index t (2 : Fin 4) * 8 ≤ (i 2).val ∧ (i 2).val < win0_2.index t (2 : Fin 4) * 8 + 8
    rw [e2]; omega
  | ⟨3, _⟩ =>
    show win0_2.index t (3 : Fin 4) * 128 ≤ (i 3).val ∧ (i 3).val < win0_2.index t (3 : Fin 4) * 128 + 128
    rw [e3]; omega

/-- So the region leaves the array holding that function. -/
theorem outArr_eq (c : Dev nD) : outArr m c = outG m c :=
  (dats m 0 c).arrAt_eq_of_cover 2 (outG m c) (flushed_eq m c) (cover c)

end Cert.KernelIdeal.KV

end
-- ==== Proof.KTailIdeal.lean ====
import proofs.«421495_j77902116815085_3_alg».proof.Proof.KTail
import proofs.«421495_j77902116815085_3_alg».proof.Proof.Spec
import Idealize.ShloMosaic.Lib.ValueIdx
import Idealize.ShloMosaic.Lib.Pipeline.Value
import Idealize.ShloMosaic.PureOps.Ideal.Laws

set_option maxRecDepth 16384

noncomputable section

/-! The scalar tail at the exact values.

Read over the extended reals, the chain of scalar operations after the region is, operation for operation, the
specification's `loss` of the three totals, and each total is the plain triple sum of one plane of the array of partial
sums: the slice picks the plane, the shape cast only drops its unit axis (same row-major position), and the reduction
into a scalar adds every entry to the zero initial value. -/

namespace Cert.KernelIdeal.KV

open Cert.KernelIdeal Cert.KernelIdeal.Gen
open Idealize.ShloMosaic Idealize.ShloMosaic.TcCoe Idealize.ShloMosaic.Tactic
open Idealize.ShloMosaic.StableHlo
open Idealize.SL Idealize.SL.Sem
open Idealize.ShloMosaic.Pipeline (Dat Cfg Window)
open Idealize.ShloMosaic.ValueIdx

/-- The loss chain at an index is the specification's `loss` of the three totals there: the same operations in the
    same order, each read elementwise. -/
theorem lossK_apply (T Q B : FVec Ideal S_ .f32) (i : S_.Idx) :
    lossK (F := Ideal) T Q B i = Cert.F1.loss (T i) (Q i) (B i) := by
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- One plane's total is the triple sum of the plane's entries: the reduction into a scalar adds every entry of its
    operand to the zero initial value; the operand at `(g, s, l)` is the sliced plane at `(g, 0, s, l)` (the shape cast
    keeps the row-major position `(g·8 + s)·128 + l`), which is the array at `(g, k, s, l)` (the slice's offset is `k`
    on axis 1 and zero elsewhere). -/
theorem planeSum_apply (out : FVec Ideal S2x3x8x128 .f32) (k : Fin 3) (off : Fin 4 → Nat)
    (hs : S2x3x8x128.Slices off S2x1x8x128) (hoff : off = ![0, k.val, 0, 0]) (i : S_.Idx) :
    planeSum (F := Ideal) out off hs i = ∑ g : Fin 2, ∑ s : Fin 8, ∑ l : Fin 128, out (ValueIdx.ix4 g k s l) := by
  subst hoff
  unfold planeSum
  show Ideal.hostReduceAdd reducesTo_S2x8x128_S_d0_1_2 _ (Ideal.ofBits .f32 0x00000000#32) i = _
  rw [Ideal.hostReduceAdd_total _ (fun b => b.elim0), Ideal.ofBits_zero_f32, zero_add, sum_idx3]
  refine Finset.sum_congr rfl fun g _ => Finset.sum_congr rfl fun s _ => Finset.sum_congr rfl fun l _ => ?_
  refine (shapeCast_apply _ shapeCasts_S2x1x8x128_S2x8x128 (ix3 g s l) (ix4 g (0 : Fin 1) s l) ?_).trans ?_
  · rw [Shape.rowMajor_val_three, Shape.rowMajor_val_four]
    show ((g.val * 1 + 0) * 8 + s.val) * 128 + l.val = (g.val * 8 + s.val) * 128 + l.val
    omega
  · exact extractStridedSlice_apply _ out hs (ix4 g (0 : Fin 1) s l) (ix4 g k s l) (fun a => by
      match a with
      | ⟨0, _⟩ => exact (Nat.zero_add _).symm
      | ⟨1, _⟩ => exact (Nat.add_zero _).symm
      | ⟨2, _⟩ => exact (Nat.zero_add _).symm
      | ⟨3, _⟩ => exact (Nat.zero_add _).symm)

/-- The whole tail: the loss of the three planes' totals. -/
theorem tailK_apply (out : FVec Ideal S2x3x8x128 .f32) (i : S_.Idx) :
    tailK (F := Ideal) out i
      = Cert.F1.loss (∑ g : Fin 2, ∑ s : Fin 8, ∑ l : Fin 128, out (ValueIdx.ix4 g (0 : Fin 3) s l))
          (∑ g : Fin 2, ∑ s : Fin 8, ∑ l : Fin 128, out (ValueIdx.ix4 g (1 : Fin 3) s l))
          (∑ g : Fin 2, ∑ s : Fin 8, ∑ l : Fin 128, out (ValueIdx.ix4 g (2 : Fin 3) s l)) := by
  unfold tailK
  rw [lossK_apply,
    planeSum_apply out 0 ![0, 0, 0, 0] slices_S2x3x8x128_S2x1x8x128_0_0_0_0 rfl,
    planeSum_apply out 1 ![0, 1, 0, 0] slices_S2x3x8x128_S2x1x8x128_0_1_0_0 rfl,
    planeSum_apply out 2 ![0, 2, 0, 0] slices_S2x3x8x128_S2x1x8x128_0_2_0_0 rfl]

end Cert.KernelIdeal.KV

end
-- ==== Proof.Reindex.lean ====
/-
  Regrouping a sum over a flat index as an iterated sum over the digits of the index.

  A flat position n < G·I·(B·S)·L is written uniquely as
    n = ((g·I + i)·(B·S) + (b·S + s))·L + l,   g < G, i < I, b < B, s < S, l < L,
  (a mixed-radix expansion), so a sum over n is the five-fold sum over the digits, and the
  five sums may be taken in any order.  Only commutativity and associativity of the addition
  are used.
-/
import Mathlib.Algebra.BigOperators.Fin
import Mathlib.Algebra.BigOperators.Group.Finset.Basic
import Mathlib.Algebra.BigOperators.Group.Finset.Sigma

namespace Cert.F1

open Finset

variable {M : Type*} [AddCommMonoid M]

/-- Two digits: a sum over `n < a·b` is the sum over `p < a`, `q < b` at `n = p·b + q`. -/
theorem sum_range_mul (a b : ℕ) (f : ℕ → M) :
    ∑ n ∈ range (a * b), f n = ∑ p ∈ range a, ∑ q ∈ range b, f (p * b + q) := by
  induction a with
  | zero => simp
  | succ a ih => rw [Nat.succ_mul, sum_range_add, ih, sum_range_succ]

/-- Five digits, every sum over a range, the digits summed in the order g, s, l, i, b. -/
theorem sum_range_flat (G I B S L : ℕ) (f : ℕ → M) :
    ∑ n ∈ range (G * I * (B * S) * L), f n
      = ∑ g ∈ range G, ∑ s ∈ range S, ∑ l ∈ range L, ∑ i ∈ range I, ∑ b ∈ range B,
          f (((g * I + i) * (B * S) + (b * S + s)) * L + l) := by
  -- split off the digits one radix at a time: order g, i, b, s, l
  have split : ∑ n ∈ range (G * I * (B * S) * L), f n
      = ∑ g ∈ range G, ∑ i ∈ range I, ∑ b ∈ range B, ∑ s ∈ range S, ∑ l ∈ range L,
          f (((g * I + i) * (B * S) + (b * S + s)) * L + l) := by
    rw [sum_range_mul (G * I * (B * S)) L, sum_range_mul (G * I) (B * S), sum_range_mul G I]
    refine sum_congr rfl fun g _ => sum_congr rfl fun i _ => ?_
    rw [sum_range_mul B S]
  rw [split]
  refine sum_congr rfl fun g _ => ?_
  -- reorder i, b, s, l into s, l, i, b by exchanging neighbouring sums
  calc ∑ i ∈ range I, ∑ b ∈ range B, ∑ s ∈ range S, ∑ l ∈ range L,
          f (((g * I + i) * (B * S) + (b * S + s)) * L + l)
      = ∑ i ∈ range I, ∑ s ∈ range S, ∑ l ∈ range L, ∑ b ∈ range B,
          f (((g * I + i) * (B * S) + (b * S + s)) * L + l) := by
        refine sum_congr rfl fun i _ => ?_
        rw [sum_comm]
        refine sum_congr rfl fun s _ => ?_
        rw [sum_comm]
    _ = ∑ s ∈ range S, ∑ i ∈ range I, ∑ l ∈ range L, ∑ b ∈ range B,
          f (((g * I + i) * (B * S) + (b * S + s)) * L + l) := sum_comm
    _ = ∑ s ∈ range S, ∑ l ∈ range L, ∑ i ∈ range I, ∑ b ∈ range B,
          f (((g * I + i) * (B * S) + (b * S + s)) * L + l) := by
        refine sum_congr rfl fun s _ => ?_
        rw [sum_comm]

/-- The same with the digits g, s, l, b and the flat index running over `Fin`, the digit i over
a range, for symbolic radices. -/
theorem sum_flat_gen (G I B S L : ℕ) (f : ℕ → M) :
    ∑ g : Fin G, ∑ s : Fin S, ∑ l : Fin L, ∑ i ∈ range I, ∑ b : Fin B,
        f (((g.val * I + i) * (B * S) + (b.val * S + s.val)) * L + l.val)
      = ∑ n : Fin (G * I * (B * S) * L), f n.val := by
  rw [← Finset.sum_range f, sum_range_flat]
  symm
  rw [Finset.sum_range]
  refine sum_congr rfl fun g _ => ?_
  rw [Finset.sum_range]
  refine sum_congr rfl fun s _ => ?_
  rw [Finset.sum_range]
  refine sum_congr rfl fun l _ => ?_
  refine sum_congr rfl fun i _ => ?_
  rw [Finset.sum_range]

/-- The flat array of 2^25 entries read as [2, 16, 1024, 8, 128]: the position of
(g, i, b, s, l) is ((g·16 + i)·8192 + (b·8 + s))·128 + l. -/
theorem sum_flat (f : ℕ → M) :
    ∑ g : Fin 2, ∑ s : Fin 8, ∑ l : Fin 128, ∑ i ∈ Finset.range 16, ∑ b : Fin 1024,
        f (((g.val * 16 + i) * 8192 + (b.val * 8 + s.val)) * 128 + l.val)
      = ∑ n : Fin 33554432, f n.val :=
  sum_flat_gen 2 16 1024 8 128 f

end Cert.F1
-- ==== Proof.KValue.lean ====
import proofs.«421495_j77902116815085_3_alg».proof.Proof.KArray
import proofs.«421495_j77902116815085_3_alg».proof.Proof.KTailIdeal
import proofs.«421495_j77902116815085_3_alg».proof.Proof.Reindex

set_option maxRecDepth 16384

noncomputable section

/-! The kernel's result is the specification.

Each plane of the array of partial sums, summed over its 2·8·128 entries, is a five-fold sum of one per-entry term over
(row g, sublane s, lane l, point i of the row, row group b), and the flat position ((16g + i)·8192 + 8b + s)·128 + l runs
over every entry of the flat array exactly once: the plane's total is the term's sum over the whole array.  No order
of summation matters on the extended reals. -/

namespace Cert.KernelIdeal.KV

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ)

/-- A plane of row totals of a per-entry term sums to the term's sum over the flat array. -/
theorem plane_total (f : ℕ → EReal) :
    ∑ g : Fin 2, ∑ s : Fin 8, ∑ l : Fin 128, rowTotal f g.val (ValueIdx.ix2 s l) = ∑ n : Fin 33554432, f n.val := by
  rw [← Cert.F1.sum_flat f]
  refine Finset.sum_congr rfl fun g _ => Finset.sum_congr rfl fun s _ => Finset.sum_congr rfl fun l _ => ?_
  unfold rowTotal addend
  refine Finset.sum_congr rfl fun st _ => Finset.sum_congr rfl fun b _ => ?_
  show f (((16 * g.val + st) * 8192 + (b.val * 8 + s.val)) * 128 + l.val)
    = f (((g.val * 16 + st) * 8192 + (b.val * 8 + s.val)) * 128 + l.val)
  rw [Nat.mul_comm 16 g.val]

theorem total0 (c : Dev nD) :
    ∑ g : Fin 2, ∑ s : Fin 8, ∑ l : Fin 128, outG m c (ValueIdx.ix4 g (0 : Fin 3) s l) = Cert.F1.sumT (argY m c) := by
  refine (Finset.sum_congr rfl fun g _ => Finset.sum_congr rfl fun s _ => Finset.sum_congr rfl fun l _ => ?_ :
    _ = ∑ g : Fin 2, ∑ s : Fin 8, ∑ l : Fin 128, rowTotal (labN (argY m c)) g.val (ValueIdx.ix2 s l)).trans ?_
  · unfold outG
    rw [if_pos (show ((0 : Fin 3) : ℕ) = 0 from rfl)]
  · rw [plane_total]
    unfold Cert.F1.sumT
    refine Finset.sum_congr rfl fun n _ => ?_
    unfold labN
    rw [dif_pos n.isLt]

theorem total1 (c : Dev nD) :
    ∑ g : Fin 2, ∑ s : Fin 8, ∑ l : Fin 128, outG m c (ValueIdx.ix4 g (1 : Fin 3) s l) = Cert.F1.sumQ (argX m c) := by
  refine (Finset.sum_congr rfl fun g _ => Finset.sum_congr rfl fun s _ => Finset.sum_congr rfl fun l _ => ?_ :
    _ = ∑ g : Fin 2, ∑ s : Fin 8, ∑ l : Fin 128, rowTotal (smallN (argX m c)) g.val (ValueIdx.ix2 s l)).trans ?_
  · unfold outG
    rw [if_neg (show ¬((1 : Fin 3) : ℕ) = 0 by decide), if_pos (show ((1 : Fin 3) : ℕ) = 1 from rfl)]
  · rw [plane_total]
    unfold Cert.F1.sumQ
    refine Finset.sum_congr rfl fun n _ => ?_
    unfold smallN
    rw [dif_pos n.isLt]

theorem total2 (c : Dev nD) :
    ∑ g : Fin 2, ∑ s : Fin 8, ∑ l : Fin 128, outG m c (ValueIdx.ix4 g (2 : Fin 3) s l) = Cert.F1.sumB (argX m c) (argY m c) := by
  refine (Finset.sum_congr rfl fun g _ => Finset.sum_congr rfl fun s _ => Finset.sum_congr rfl fun l _ => ?_ :
    _ = ∑ g : Fin 2, ∑ s : Fin 8, ∑ l : Fin 128, rowTotal (prodN (argX m c) (argY m c)) g.val (ValueIdx.ix2 s l)).trans ?_
  · unfold outG
    rw [if_neg (show ¬((2 : Fin 3) : ℕ) = 0 by decide), if_neg (show ¬((2 : Fin 3) : ℕ) = 1 by decide)]
  · rw [plane_total]
    unfold Cert.F1.sumB
    refine Finset.sum_congr rfl fun n _ => ?_
    unfold prodN
    rw [dif_pos n.isLt]

/-- The loss of the array of partial sums is the specification of the two arguments. -/
theorem result_eq (c : Dev nD) : tailK (F := Ideal) (outArr m c) = Cert.F1.spec (argX m c) (argY m c) := by
  funext i
  rw [outArr_eq, tailK_apply, total0, total1, total2]
  rfl

variable (ρ : Dev nD → PrngReg)

/-- The run: the result buffer ends at the specification of the arguments, the arguments unchanged. -/
theorem run : θ_run defs (onTc (τ := τ) (main (F := Ideal))) ⟨m, fun _ => 0, ρ⟩ fun r => ∀ c : Dev nD,
      r.2.mem ((c.tc : Thread nD τ).loc main_v42) = Cert.F1.spec (argX m c) (argY m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v42 (Pipeline.mem_restRefs_of main_v42 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KV

end
-- ==== Proof.RefValue.lean ====
/-
  The reference program's value is the specification.

  For a prediction array x and a binary label array y, write t n for the label as a number and
  q n = min (x n) (1 - x n).  The reference builds the one-hot rows oh(n, ·) = (1 - t n, t n) and the
  prediction rows yp(n, ·) = (q n, 1 - q n), and sums over n the products
      tp = oh · yp,   fp = (1 - oh) · yp,   fn = oh · (1 - yp)
  column by column.  With finite predictions every term is a real number, so the six sums are, in
  terms of T = Σ t, Q = Σ q, B = Σ t·q and the number of entries N,
      tp[0] = Q - B,  fp[0] = B,                  fn[0] = (N - T) - (Q - B),
      tp[1] = T - B,  fp[1] = (N - T) - (Q - B),  fn[1] = B.
  The rest of the program is the clipped score f1 of each column, their mean and its complement, the same
  operations in the same order as the specification's.
-/
import proofs.«421495_j77902116815085_3_alg».proof.Proof.Gen.ReferenceIdeal.Read
import proofs.«421495_j77902116815085_3_alg».proof.Proof.Spec
import Idealize.ShloMosaic.Lib.ValueIdx
import Idealize.ShloMosaic.Lib.Pipeline.Value
import Idealize.ShloMosaic.PureOps.Ideal.Laws

noncomputable section

namespace Cert.F1.Ref

open Idealize.ShloMosaic Idealize.ShloMosaic.ValueIdx
open Cert.ReferenceIdeal Cert.ReferenceIdeal.Read

/-! ## The literal words -/

theorem one_eq : Cert.F1.one = ((1 : ℝ) : EReal) := by
  simp [Cert.F1.one, Ideal.ofBits, Ideal.ieee, -EReal.coe_mul] <;> norm_num

theorem half_eq : Cert.F1.half = ((1 / 2 : ℝ) : EReal) := by
  simp [Cert.F1.half, Ideal.ofBits, Ideal.ieee, -EReal.coe_mul] <;> norm_num

theorem two_eq : Cert.F1.two = ((2 : ℝ) : EReal) := by
  simp [Cert.F1.two, Ideal.ofBits, Ideal.ieee, -EReal.coe_mul] <;> norm_num

theorem cnt_eq : Cert.F1.cnt = ((33554432 : ℝ) : EReal) := by
  simp [Cert.F1.cnt, Ideal.ofBits, Ideal.ieee, -EReal.coe_mul] <;> norm_num

/-- The word of 1.0 as the program reads it. -/
theorem ofBits_one : FloatOps.ofBits (F := Ideal) .f32 0x3F800000#32 = ((1 : ℝ) : EReal) := one_eq

/-- The word of 0.5 as the program reads it. -/
theorem ofBits_half : FloatOps.ofBits (F := Ideal) .f32 0x3F000000#32 = ((1 / 2 : ℝ) : EReal) := half_eq

/-- The word of 0.0 as the program reads it. -/
theorem ofBits_zero : FloatOps.ofBits (F := Ideal) .f32 0x00000000#32 = 0 := Ideal.ofBits_zero_f32

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section RealSums
variable {ι : Type*} [Fintype ι] (t q : ι → ℝ)

theorem sum_c_q : ∑ n, (1 - t n) * q n = (∑ n, q n) - ∑ n, t n * q n := by
  simp only [sub_mul, one_mul, Finset.sum_sub_distrib]

theorem sum_t_c : ∑ n, t n * (1 - q n) = (∑ n, t n) - ∑ n, t n * q n := by
  simp only [mul_sub, mul_one, Finset.sum_sub_distrib]

theorem sum_cc_q : ∑ n, (1 - (1 - t n)) * q n = ∑ n, t n * q n := by
  simp only [sub_sub_cancel]

theorem sum_t_cc : ∑ n, t n * (1 - (1 - q n)) = ∑ n, t n * q n := by
  simp only [sub_sub_cancel]

theorem sum_c_c : ∑ n, (1 - t n) * (1 - q n)
    = ((Fintype.card ι : ℝ) - ∑ n, t n) - ((∑ n, q n) - ∑ n, t n * q n) := by
  have h : ∀ n, (1 - t n) * (1 - q n) = 1 - t n - (q n - t n * q n) := fun n => by ring
  simp only [h, Finset.sum_sub_distrib, Finset.sum_const, Finset.card_univ, nsmul_eq_mul, mul_one]

end RealSums

theorem sel_eq_min (r : ℝ) :
    Scalar.select (Ideal.cmp .olt (r : EReal) ((1 / 2 : ℝ) : EReal)) (r : EReal) (((1 : ℝ) : EReal) - (r : EReal))
      = ((min r (1 - r) : ℝ) : EReal) := by
  by_cases h : r < 1 / 2
  · have h' : (r : EReal) < ((1 / 2 : ℝ) : EReal) := EReal.coe_lt_coe_iff.mpr h
    simp only [Ideal.cmp, h', decide_true, BitVec.ofBool_true]
    rw [min_eq_left (by linarith)]
    exact if_pos rfl
  · have h' : ¬ (r : EReal) < ((1 / 2 : ℝ) : EReal) := fun hh => h (EReal.coe_lt_coe_iff.mp hh)
    simp only [Ideal.cmp, h', decide_false, BitVec.ofBool_false]
    rw [min_eq_right (by linarith), EReal.coe_sub]
    exact if_neg (by decide)

/-! ## The label and the smaller prediction as real numbers -/

/-- The label as a real number. -/
def tR (y : IVec SN 32) (n : Fin 33554432) : ℝ := ((y (ix1 n)).toInt : ℝ)

theorem lab_eq (y : IVec SN 32) (n : Fin 33554432) : lab y n = (tR y n : EReal) := rfl

/-- The smaller of a finite prediction and its complement as a real number. -/
def qR (x : FVec Ideal SN .f32) (n : Fin 33554432) : ℝ :=
  min (x (ix1 n)).toReal (1 - (x (ix1 n)).toReal)

theorem small_eq (x : FVec Ideal SN .f32) (n : Fin 33554432)
    (h : ∃ r : ℝ, x (ix1 n) = (r : EReal)) : small x n = (qR x n : EReal) := by
  obtain ⟨r, hr⟩ := h
  unfold small qR
  rw [hr, one_eq, EReal.toReal_coe, ← EReal.coe_sub]
  rcases le_total r (1 - r) with h | h
  · rw [min_eq_left h, min_eq_left (EReal.coe_le_coe_iff.mpr h)]
  · rw [min_eq_right h, min_eq_right (EReal.coe_le_coe_iff.mpr h)]

theorem sumT_eq (y : IVec SN 32) : sumT y = ((∑ n, tR y n : ℝ) : EReal) := by
  rw [coe_sum]; unfold sumT; exact Finset.sum_congr rfl fun n _ => rfl

theorem sumQ_eq (x : FVec Ideal SN .f32) (hfin : ∀ n : Fin 33554432, ∃ r : ℝ, x (ix1 n) = (r : EReal)) :
    sumQ x = ((∑ n, qR x n : ℝ) : EReal) := by
  rw [coe_sum]; unfold sumQ; exact Finset.sum_congr rfl fun n _ => small_eq x n (hfin n)

theorem sumB_eq (x : FVec Ideal SN .f32) (y : IVec SN 32)
    (hfin : ∀ n : Fin 33554432, ∃ r : ℝ, x (ix1 n) = (r : EReal)) :
    sumB x y = ((∑ n, tR y n * qR x n : ℝ) : EReal) := by
  rw [coe_sum]; unfold sumB
  refine Finset.sum_congr rfl fun n _ => ?_
  rw [lab_eq, small_eq x n (hfin n), EReal.coe_mul]

/-! ## The one-hot entries -/

theorem uitofp_ideal {w : Nat} (b : BitVec w) :
    (FloatOps.uitofp (F := Ideal) .f32 b) = ((b.toNat : ℝ) : EReal) := rfl

/-- Column 0 of the one-hot row of a binary label is the complement of the label … -/
theorem oh_zero (y : BitVec 32) (h : y = 0#32 ∨ y = 1#32) :
    (FloatOps.uitofp (F := Ideal) .f32 (IntOp.cmpi .eq y (BitVec.ofNat 32 0)))
      = ((1 - (y.toInt : ℝ) : ℝ) : EReal) := by
  rw [uitofp_ideal]
  rcases h with rfl | rfl
  · have : IntOp.cmpi .eq 0#32 (BitVec.ofNat 32 0) = 1#1 := by decide
    rw [this]; norm_num
  · have : IntOp.cmpi .eq 1#32 (BitVec.ofNat 32 0) = 0#1 := by decide
    rw [this]; norm_num

/-- … and column 1 is the label. -/
theorem oh_one (y : BitVec 32) (h : y = 0#32 ∨ y = 1#32) :
    (FloatOps.uitofp (F := Ideal) .f32 (IntOp.cmpi .eq y (BitVec.ofNat 32 1)))
      = (((y.toInt : ℝ) : ℝ) : EReal) := by
  rw [uitofp_ideal]
  rcases h with rfl | rfl
  · have : IntOp.cmpi .eq 0#32 (BitVec.ofNat 32 1) = 0#1 := by decide
    rw [this]; norm_num
  · have : IntOp.cmpi .eq 1#32 (BitVec.ofNat 32 1) = 1#1 := by decide
    rw [this]; norm_num

/-! ## A sum over a rank-1 index set -/

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The program's arrays at an index -/

/-- Column 0 of the one-hot array at row n: the complement of the label. -/
theorem v0_zero (x1 : IVec SN 32) (n : Fin 33554432)
    (h : x1 (ix1 n) = 0#32 ∨ x1 (ix1 n) = 1#32) :
    val_main_v0 (F := Ideal) x1 (ix2 n (0 : Fin 2)) = ((1 - tR x1 n : ℝ) : EReal) := by
  rw [val_main_v0_apply, val_main_call0_v4_apply, val_main_call0_v2_apply, val_main_call0_v0_apply,
    val_main_call0_v3_apply, val_main_call0_v1_apply]
  have e1 : idx_main_call0_v0 (idx_main_call0_v2 (ix2 n (0 : Fin 2))) = ix1 n := by
    funext a; match a with | ⟨0, _⟩ => rfl
  rw [e1]
  exact oh_zero (x1 (ix1 n)) h

/-- Column 1 of the one-hot array at row n: the label. -/
theorem v0_one (x1 : IVec SN 32) (n : Fin 33554432)
    (h : x1 (ix1 n) = 0#32 ∨ x1 (ix1 n) = 1#32) :
    val_main_v0 (F := Ideal) x1 (ix2 n (1 : Fin 2)) = ((tR x1 n : ℝ) : EReal) := by
  rw [val_main_v0_apply, val_main_call0_v4_apply, val_main_call0_v2_apply, val_main_call0_v0_apply,
    val_main_call0_v3_apply, val_main_call0_v1_apply]
  have e1 : idx_main_call0_v0 (idx_main_call0_v2 (ix2 n (1 : Fin 2))) = ix1 n := by
    funext a; match a with | ⟨0, _⟩ => rfl
  rw [e1]
  exact oh_one (x1 (ix1 n)) h

/-- The selected column: the smaller of a finite prediction and its complement. -/
theorem v5_eq (x0 : FVec Ideal SN .f32) (n : Fin 33554432)
    (h : ∃ r : ℝ, x0 (ix1 n) = (r : EReal)) :
    val_main_v5 (F := Ideal) x0 (ix1 n) = (qR x0 n : EReal) := by
  obtain ⟨r, hr⟩ := h
  rw [val_main_v5_apply, val_main_v2_apply, val_main_v4_apply, val_main_v1_apply, val_main_v3_apply,
    val_main_cst_apply, val_main_cst_0_apply, ofBits_one, ofBits_half, hr]
  unfold qR
  rw [hr, EReal.toReal_coe]
  exact sel_eq_min r

/-- Its complement. -/
theorem v7_eq (x0 : FVec Ideal SN .f32) (n : Fin 33554432)
    (h : ∃ r : ℝ, x0 (ix1 n) = (r : EReal)) :
    val_main_v7 (F := Ideal) x0 (ix1 n) = ((1 - qR x0 n : ℝ) : EReal) := by
  rw [val_main_v7_apply, val_main_v6_apply, val_main_cst_1_apply, ofBits_one, v5_eq x0 n h]
  rfl

/-- Column 0 of the joined prediction array is the selected column … -/
theorem v10_zero (x0 : FVec Ideal SN .f32) (n : Fin 33554432) :
    val_main_v10 (F := Ideal) x0 (ix2 n (0 : Fin 2)) = val_main_v5 (F := Ideal) x0 (ix1 n) := by
  unfold val_main_v10
  refine (concatenate_pair_apply_left (s₁ := S33554432x1) (s₂ := S33554432x1) (1 : Fin 2) _ _ _ (ix2 n (0 : Fin 2)) rfl (ix2 n (0 : Fin 1))
    (fun b => by match b with | ⟨0, _⟩ => rfl | ⟨1, _⟩ => rfl)).trans ?_
  rw [val_main_v8_apply]
  refine congrArg _ ?_
  funext a; match a with | ⟨0, _⟩ => rfl

/-- … and column 1 is its complement. -/
theorem v10_one (x0 : FVec Ideal SN .f32) (n : Fin 33554432) :
    val_main_v10 (F := Ideal) x0 (ix2 n (1 : Fin 2)) = val_main_v7 (F := Ideal) x0 (ix1 n) := by
  unfold val_main_v10
  refine (concatenate_pair_apply_right (s₁ := S33554432x1) (s₂ := S33554432x1) (1 : Fin 2) _ _ _ (ix2 n (1 : Fin 2)) rfl rfl (ix2 n (0 : Fin 1))
    (fun b hb => by match b with | ⟨0, _⟩ => rfl | ⟨1, _⟩ => exact absurd rfl hb) rfl).trans ?_
  rw [val_main_v9_apply]
  refine congrArg _ ?_
  funext a; match a with | ⟨0, _⟩ => rfl

/-- The prediction array's two columns at a finite prediction. -/
theorem yp_zero (x0 : FVec Ideal SN .f32) (n : Fin 33554432) (hf : ∃ r : ℝ, x0 (ix1 n) = (r : EReal)) :
    val_main_v10 (F := Ideal) x0 (ix2 n (0 : Fin 2)) = (qR x0 n : EReal) := by
  rw [v10_zero, v5_eq x0 n hf]

theorem yp_one (x0 : FVec Ideal SN .f32) (n : Fin 33554432) (hf : ∃ r : ℝ, x0 (ix1 n) = (r : EReal)) :
    val_main_v10 (F := Ideal) x0 (ix2 n (1 : Fin 2)) = ((1 - qR x0 n : ℝ) : EReal) := by
  rw [v10_one, v7_eq x0 n hf]

/-! ## The summands of the three sums, as real numbers -/

section Summands
variable (x0 : FVec Ideal SN .f32) (x1 : IVec SN 32) (n : Fin 33554432)

theorem v11_zero (hf : ∃ r : ℝ, x0 (ix1 n) = (r : EReal)) (hl : x1 (ix1 n) = 0#32 ∨ x1 (ix1 n) = 1#32) :
    val_main_v11 (F := Ideal) x0 x1 (ix2 n (0 : Fin 2)) = (((1 - tR x1 n) * qR x0 n : ℝ) : EReal) := by
  rw [val_main_v11_apply, v0_zero x1 n hl, yp_zero x0 n hf]
  exact (EReal.coe_mul _ _).symm

theorem v11_one (hf : ∃ r : ℝ, x0 (ix1 n) = (r : EReal)) (hl : x1 (ix1 n) = 0#32 ∨ x1 (ix1 n) = 1#32) :
    val_main_v11 (F := Ideal) x0 x1 (ix2 n (1 : Fin 2)) = ((tR x1 n * (1 - qR x0 n) : ℝ) : EReal) := by
  rw [val_main_v11_apply, v0_one x1 n hl, yp_one x0 n hf]
  exact (EReal.coe_mul _ _).symm

theorem v21_zero (hf : ∃ r : ℝ, x0 (ix1 n) = (r : EReal)) (hl : x1 (ix1 n) = 0#32 ∨ x1 (ix1 n) = 1#32) :
    val_main_v21 (F := Ideal) x0 x1 (ix2 n (0 : Fin 2)) = (((1 - (1 - tR x1 n)) * qR x0 n : ℝ) : EReal) := by
  rw [val_main_v21_apply, val_main_v20_apply, val_main_v19_apply, val_main_cst_6_apply, ofBits_one,
    v0_zero x1 n hl, yp_zero x0 n hf]
  exact (EReal.coe_mul _ _).symm

theorem v21_one (hf : ∃ r : ℝ, x0 (ix1 n) = (r : EReal)) (hl : x1 (ix1 n) = 0#32 ∨ x1 (ix1 n) = 1#32) :
    val_main_v21 (F := Ideal) x0 x1 (ix2 n (1 : Fin 2)) = (((1 - tR x1 n) * (1 - qR x0 n) : ℝ) : EReal) := by
  rw [val_main_v21_apply, val_main_v20_apply, val_main_v19_apply, val_main_cst_6_apply, ofBits_one,
    v0_one x1 n hl, yp_one x0 n hf]
  exact (EReal.coe_mul _ _).symm

theorem v25_zero (hf : ∃ r : ℝ, x0 (ix1 n) = (r : EReal)) (hl : x1 (ix1 n) = 0#32 ∨ x1 (ix1 n) = 1#32) :
    val_main_v25 (F := Ideal) x0 x1 (ix2 n (0 : Fin 2)) = (((1 - tR x1 n) * (1 - qR x0 n) : ℝ) : EReal) := by
  rw [val_main_v25_apply, val_main_v24_apply, val_main_v23_apply, val_main_cst_8_apply, ofBits_one,
    v0_zero x1 n hl, yp_zero x0 n hf]
  exact (EReal.coe_mul _ _).symm

theorem v25_one (hf : ∃ r : ℝ, x0 (ix1 n) = (r : EReal)) (hl : x1 (ix1 n) = 0#32 ∨ x1 (ix1 n) = 1#32) :
    val_main_v25 (F := Ideal) x0 x1 (ix2 n (1 : Fin 2)) = ((tR x1 n * (1 - (1 - qR x0 n)) : ℝ) : EReal) := by
  rw [val_main_v25_apply, val_main_v24_apply, val_main_v23_apply, val_main_cst_8_apply, ofBits_one,
    v0_one x1 n hl, yp_one x0 n hf]
  exact (EReal.coe_mul _ _).symm

end Summands

/-! ## The six sums -/

theorem idx12 (k : Fin 2) (n : Fin 33554432) : idx_main_v12 (ix1 k) n = ix2 n k := by
  funext a; match a with | ⟨0, _⟩ => rfl | ⟨1, _⟩ => rfl
theorem idx22 (k : Fin 2) (n : Fin 33554432) : idx_main_v22 (ix1 k) n = ix2 n k := by
  funext a; match a with | ⟨0, _⟩ => rfl | ⟨1, _⟩ => rfl
theorem idx26 (k : Fin 2) (n : Fin 33554432) : idx_main_v26 (ix1 k) n = ix2 n k := by
  funext a; match a with | ⟨0, _⟩ => rfl | ⟨1, _⟩ => rfl

/-- Σ (1 - t)(1 - q) over the 2^25 entries. -/
theorem sum_c_c' (t q : Fin 33554432 → ℝ) : ∑ n, (1 - t n) * (1 - q n)
    = ((33554432 : ℝ) - ∑ n, t n) - ((∑ n, q n) - ∑ n, t n * q n) := by
  rw [sum_c_c, Fintype.card_fin, Nat.cast_ofNat]

section Sums
variable (x0 : FVec Ideal SN .f32) (x1 : IVec SN 32)
  (hfin : ∀ n : Fin 33554432, ∃ r : ℝ, x0 (ix1 n) = (r : EReal))
  (hlab : ∀ n : Fin 33554432, x1 (ix1 n) = 0#32 ∨ x1 (ix1 n) = 1#32)
include hfin hlab

/-- The shared value (N - T) - (Q - B) as the coercion of a real number. -/
theorem rest_eq : (cnt - sumT x1) - (sumQ x0 - sumB x0 x1)
    = ((((33554432 : ℝ) - ∑ n, tR x1 n) - ((∑ n, qR x0 n) - ∑ n, tR x1 n * qR x0 n) : ℝ) : EReal) := by
  rw [cnt_eq, sumT_eq, sumQ_eq x0 hfin, sumB_eq x0 x1 hfin]
  rfl

theorem tp_zero : val_main_v12 (F := Ideal) x0 x1 (ix1 (0 : Fin 2)) = sumQ x0 - sumB x0 x1 := by
  have hs : ∀ n : Fin 33554432, val_main_v11 (F := Ideal) x0 x1 (idx_main_v12 (ix1 (0 : Fin 2)) n)
      = (((1 - tR x1 n) * qR x0 n : ℝ) : EReal) := fun n => by
    rw [idx12]; exact v11_zero x0 x1 n (hfin n) (hlab n)
  rw [val_main_v12_apply, val_main_cst_2_apply, ofBits_zero, zero_add, Finset.sum_congr rfl fun n _ => hs n,
    ← coe_sum, sum_c_q, EReal.coe_sub, ← sumQ_eq x0 hfin, ← sumB_eq x0 x1 hfin]

theorem tp_one : val_main_v12 (F := Ideal) x0 x1 (ix1 (1 : Fin 2)) = sumT x1 - sumB x0 x1 := by
  have hs : ∀ n : Fin 33554432, val_main_v11 (F := Ideal) x0 x1 (idx_main_v12 (ix1 (1 : Fin 2)) n)
      = ((tR x1 n * (1 - qR x0 n) : ℝ) : EReal) := fun n => by
    rw [idx12]; exact v11_one x0 x1 n (hfin n) (hlab n)
  rw [val_main_v12_apply, val_main_cst_2_apply, ofBits_zero, zero_add, Finset.sum_congr rfl fun n _ => hs n,
    ← coe_sum, sum_t_c, EReal.coe_sub, ← sumT_eq x1, ← sumB_eq x0 x1 hfin]

theorem fp_zero : val_main_v22 (F := Ideal) x0 x1 (ix1 (0 : Fin 2)) = sumB x0 x1 := by
  have hs : ∀ n : Fin 33554432, val_main_v21 (F := Ideal) x0 x1 (idx_main_v22 (ix1 (0 : Fin 2)) n)
      = (((1 - (1 - tR x1 n)) * qR x0 n : ℝ) : EReal) := fun n => by
    rw [idx22]; exact v21_zero x0 x1 n (hfin n) (hlab n)
  rw [val_main_v22_apply, val_main_cst_7_apply, ofBits_zero, zero_add, Finset.sum_congr rfl fun n _ => hs n,
    ← coe_sum, sum_cc_q, ← sumB_eq x0 x1 hfin]

theorem fp_one : val_main_v22 (F := Ideal) x0 x1 (ix1 (1 : Fin 2))
    = (cnt - sumT x1) - (sumQ x0 - sumB x0 x1) := by
  have hs : ∀ n : Fin 33554432, val_main_v21 (F := Ideal) x0 x1 (idx_main_v22 (ix1 (1 : Fin 2)) n)
      = (((1 - tR x1 n) * (1 - qR x0 n) : ℝ) : EReal) := fun n => by
    rw [idx22]; exact v21_one x0 x1 n (hfin n) (hlab n)
  rw [val_main_v22_apply, val_main_cst_7_apply, ofBits_zero, zero_add, Finset.sum_congr rfl fun n _ => hs n,
    ← coe_sum, sum_c_c', rest_eq x0 x1 hfin hlab]

theorem fn_zero : val_main_v26 (F := Ideal) x0 x1 (ix1 (0 : Fin 2))
    = (cnt - sumT x1) - (sumQ x0 - sumB x0 x1) := by
  have hs : ∀ n : Fin 33554432, val_main_v25 (F := Ideal) x0 x1 (idx_main_v26 (ix1 (0 : Fin 2)) n)
      = (((1 - tR x1 n) * (1 - qR x0 n) : ℝ) : EReal) := fun n => by
    rw [idx26]; exact v25_zero x0 x1 n (hfin n) (hlab n)
  rw [val_main_v26_apply, val_main_cst_9_apply, ofBits_zero, zero_add, Finset.sum_congr rfl fun n _ => hs n,
    ← coe_sum, sum_c_c', rest_eq x0 x1 hfin hlab]

theorem fn_one : val_main_v26 (F := Ideal) x0 x1 (ix1 (1 : Fin 2)) = sumB x0 x1 := by
  have hs : ∀ n : Fin 33554432, val_main_v25 (F := Ideal) x0 x1 (idx_main_v26 (ix1 (1 : Fin 2)) n)
      = ((tR x1 n * (1 - (1 - qR x0 n)) : ℝ) : EReal) := fun n => by
    rw [idx26]; exact v25_one x0 x1 n (hfin n) (hlab n)
  rw [val_main_v26_apply, val_main_cst_9_apply, ofBits_zero, zero_add, Finset.sum_congr rfl fun n _ => hs n,
    ← coe_sum, sum_t_cc, ← sumB_eq x0 x1 hfin]

end Sums

/-! ## The score of a column, the mean, and the result -/

/-- Each column's clipped score is the specification's f1 of that column's three sums. -/
theorem v42_eq (x0 : FVec Ideal SN .f32) (x1 : IVec SN 32) (k : Fin 2) :
    val_main_v42 (F := Ideal) x0 x1 (ix1 k)
      = f1 (val_main_v12 (F := Ideal) x0 x1 (ix1 k)) (val_main_v22 (F := Ideal) x0 x1 (ix1 k))
          (val_main_v26 (F := Ideal) x0 x1 (ix1 k)) := by
  rw [val_main_v42_apply, val_main_call2_v4_apply, val_main_call2_v3_apply, val_main_cst_15_apply,
    val_main_call2_v2_apply, val_main_call2_v1_apply, val_main_call2_v0_apply, val_main_cst_14_apply,
    val_main_v41_apply, val_main_v37_apply, val_main_v36_apply, val_main_cst_12_apply, val_main_v35_apply,
    val_main_v40_apply, val_main_v38_apply, val_main_v39_apply, val_main_cst_13_apply,
    val_main_v30_apply, val_main_v34_apply, val_main_v29_apply, val_main_v27_apply, val_main_v28_apply,
    val_main_cst_10_apply, val_main_v33_apply, val_main_v31_apply, val_main_v32_apply, val_main_cst_11_apply]
  generalize val_main_v12 (F := Ideal) x0 x1 (ix1 k) = a
  generalize val_main_v22 (F := Ideal) x0 x1 (ix1 k) = b
  generalize val_main_v26 (F := Ideal) x0 x1 (ix1 k) = c
  rfl

/-- THE REFERENCE'S VALUE IS THE SPECIFICATION. -/
theorem val_eq_spec [Cert.ReferenceIdeal.Facts] (x0 : FVec Ideal Cert.F1.SN .f32) (x1 : IVec Cert.F1.SN 32)
    (hfin : ∀ n : Fin 33554432, ∃ r : ℝ, x0 (ValueIdx.ix1 n) = (r : EReal))
    (hlab : ∀ n : Fin 33554432, x1 (ValueIdx.ix1 n) = 0#32 ∨ x1 (ValueIdx.ix1 n) = 1#32) :
    Cert.ReferenceIdeal.Read.val_main_v45 (F := Ideal) x0 x1 = Cert.F1.spec x0 x1 := by
  funext i
  show _ = loss (sumT x1) (sumQ x0) (sumB x0 x1)
  rw [val_main_v45_apply, val_main_v44_apply, val_main_v43_apply, val_main_cst_18_apply, val_main_cst_17_apply,
    val_main_cst_16_apply, ofBits_zero, zero_add, sum_idx1, Fin.sum_univ_two, v42_eq, v42_eq,
    tp_zero x0 x1 hfin hlab, fp_zero x0 x1 hfin hlab, fn_zero x0 x1 hfin hlab,
    tp_one x0 x1 hfin hlab, fp_one x0 x1 hfin hlab, fn_one x0 x1 hfin hlab]
  generalize sumT x1 = T
  generalize sumQ x0 = Q
  generalize sumB x0 x1 = B
  show Cert.F1.one - Ideal.div _ Cert.F1.two = _
  rw [two_eq, Ideal.div_coe (by norm_num), ← half_eq]
  rfl

end Cert.F1.Ref

end
-- ==== Proof.PreDecode.lean ====
/-
  The precondition read back.  The printed predicate is the conjunction of three "for all n"
  statements, each an and-reduction over the whole array that came out 1:
    |x n| < +∞,    0 ≤ y n (signed),    y n < 2 (signed).
  An and-reduction into a single result that is 1 met a 1 at every entry.  At one entry the first
  fact says that max (x n) (-(x n)) lies strictly below ⊤, which excludes both infinities, so
  x n is a real number; the other two say that the signed value of the word y n is 0 or 1, and a
  32-bit word is determined by its signed value.
-/
import proofs.«421495_j77902116815085_3_alg».proof.Pre_finite_inputs
import proofs.«421495_j77902116815085_3_alg».proof.Proof.Spec
import Idealize.ShloMosaic.Lib.ReduceAll
import Idealize.ShloMosaic.Lib.StableHlo.Predicate
import Idealize.ShloMosaic.Lib.ValueIdx

noncomputable section

namespace Cert.F1.Pre

open Idealize.ShloMosaic Idealize.ShloMosaic.ValueIdx

/-- The scalar shape has one index. -/
instance : Subsingleton Cert.Pre_finite_inputs.S_.Idx := ⟨fun a b => funext fun d => d.elim0⟩

/-- The word of +∞. -/
theorem inf_word : Ideal.ofBits .f32 0x7F800000#32 = (⊤ : EReal) := by simp [Ideal.ofBits, Ideal.ieee]

/-- An extended real whose absolute value max a (-a) is strictly below +∞ is a real number:
    a = ⊤ gives max ⊤ ⊥ = ⊤ and a = ⊥ gives max ⊥ ⊤ = ⊤, neither below ⊤. -/
theorem real_of_abs_lt (a : EReal)
    (h : Ideal.cmp .olt (max a (-a)) (Ideal.ofBits .f32 0x7F800000#32) = 1#1) : ∃ r : ℝ, a = (r : EReal) := by
  rw [inf_word] at h
  unfold Ideal.cmp at h
  rw [StableHlo.Predicate.ofBool_eq_one_iff] at h
  simp only [decide_eq_true_eq] at h
  induction a using EReal.rec with
  | bot => simp at h
  | coe r => exact ⟨r, rfl⟩
  | top => simp at h

/-- A 32-bit word that is at least 0 and below 2 as a signed integer is the word 0 or the word 1. -/
theorem word_zero_or_one (w : BitVec 32) (h0 : IntOp.cmpi .sge w 0#32 = 1#1) (h2 : IntOp.cmpi .slt w 2#32 = 1#1) :
    w = 0#32 ∨ w = 1#32 := by
  unfold IntOp.cmpi at h0 h2
  rw [StableHlo.Predicate.ofBool_eq_one_iff] at h0 h2
  simp only [BitVec.slt, BitVec.sle, decide_eq_true_eq] at h0 h2
  have z : (0#32 : BitVec 32).toInt = 0 := by decide
  have t : (2#32 : BitVec 32).toInt = 2 := by decide
  have o : (1#32 : BitVec 32).toInt = 1 := by decide
  rw [z] at h0
  rw [t] at h2
  have hw : w.toInt = 0 ∨ w.toInt = 1 := by omega
  rcases hw with hw | hw
  · exact Or.inl (BitVec.eq_of_toInt_eq (by rw [hw, z]))
  · exact Or.inr (BitVec.eq_of_toInt_eq (by rw [hw, o]))

/-- THE PRECONDITION DECODED: every prediction is a real number and every label is the word 0 or 1. -/
theorem decode [Cert.Pre_finite_inputs.Facts] (x : FVec Ideal Cert.F1.SN .f32) (y : IVec Cert.F1.SN 32)
    (h : Cert.Pre_finite_inputs.fn (F := Ideal) x y = fun _ => 1#1) :
    (∀ n : Fin 33554432, ∃ r : ℝ, x (ValueIdx.ix1 n) = (r : EReal)) ∧
    (∀ n : Fin 33554432, y (ValueIdx.ix1 n) = 0#32 ∨ y (ValueIdx.ix1 n) = 1#32) := by
  have e := congrFun h ValueIdx.ix0
  dsimp only [Cert.Pre_finite_inputs.fn] at e
  obtain ⟨e12, e3⟩ := IntOp.andi_eq_one.1 e
  obtain ⟨e1, e2⟩ := IntOp.andi_eq_one.1 e12
  refine ⟨fun n => ?_, fun n => ?_⟩
  · -- |x n| < +∞ at entry n
    have a := Host.reduce_andi_all _ _ _ _ ValueIdx.ix0 e1 (ValueIdx.ix1 n)
    exact real_of_abs_lt (x (ValueIdx.ix1 n)) a
  · -- 0 ≤ y n and y n < 2 at entry n
    have b := Host.reduce_andi_all _ _ _ _ ValueIdx.ix0 e2 (ValueIdx.ix1 n)
    have c := Host.reduce_andi_all _ _ _ _ ValueIdx.ix0 e3 (ValueIdx.ix1 n)
    exact word_zero_or_one (y (ValueIdx.ix1 n)) b c

end Cert.F1.Pre

end
-- ==== Proof.lean ====
/-
  The certificate's claims, assembled.

  The loss of a prediction array x and a binary label array y (2^25 entries each) is ONE function of the two arrays,
  `Cert.F1.spec` (Proof/Spec.lean): three sums over all entries — of the labels, of min(p, 1 - p), of their products —
  then a short chain of scalar operations giving the two classes' clipped F1 scores and one minus their mean.

  The kernel streams the arrays through 32 grid points in two rows of sixteen, keeps the three sums as [8,128]
  accumulators that are zeroed at a row's first point and copied out at its last, and finishes on the host; over the
  extended reals its result is `spec` of the arguments for ANY labels, because only the order of additions differs
  (Proof/KPieces … KValue).  The reference builds the two-column one-hot and probability arrays and sums their
  products column by column; it agrees with `spec` exactly when every prediction is finite and every label is 0 or 1
  (Proof/RefValue), which is what the precondition says (Proof/PreDecode).  The idealization rewrote nothing, so the
  preservation claim is trivial; the three frame claims are the generated frames and the reference's generated run.
-/
import proofs.«421495_j77902116815085_3_alg».proof.Defs
import proofs.«421495_j77902116815085_3_alg».proof.Proof.Gen.Kernel
import proofs.«421495_j77902116815085_3_alg».proof.Proof.Gen.Kernel.Skeleton
import proofs.«421495_j77902116815085_3_alg».proof.Proof.Gen.Kernel.Launch
import proofs.«421495_j77902116815085_3_alg».proof.Proof.Gen.Kernel.Points
import proofs.«421495_j77902116815085_3_alg».proof.Proof.Gen.Kernel.Frame
import proofs.«421495_j77902116815085_3_alg».proof.Proof.Gen.KernelIdeal
import proofs.«421495_j77902116815085_3_alg».proof.Proof.Gen.KernelIdeal.Skeleton
import proofs.«421495_j77902116815085_3_alg».proof.Proof.Gen.KernelIdeal.Launch
import proofs.«421495_j77902116815085_3_alg».proof.Proof.Gen.KernelIdeal.Points
import proofs.«421495_j77902116815085_3_alg».proof.Proof.Gen.KernelIdeal.Frame
import proofs.«421495_j77902116815085_3_alg».proof.Proof.Gen.ReferenceIdeal
import proofs.«421495_j77902116815085_3_alg».proof.Proof.Gen.Pre_finite_inputs
import proofs.«421495_j77902116815085_3_alg».proof.Proof.Gen.ReferenceIdeal.Run
import proofs.«421495_j77902116815085_3_alg».proof.Proof.Gen.ReferenceIdeal.Read
import proofs.«421495_j77902116815085_3_alg».proof.Proof.Spec
import proofs.«421495_j77902116815085_3_alg».proof.Proof.KValue
import proofs.«421495_j77902116815085_3_alg».proof.Proof.RefValue
import proofs.«421495_j77902116815085_3_alg».proof.Proof.PreDecode
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Under the precondition both programs end at the specification of the shared arguments. -/
theorem algebraic : Cert.algebraic_KernelIdeal_ReferenceIdeal := by
  intro m ρ m' ρ' hpre hagree
  refine ⟨fun c => Cert.F1.spec (Cert.KernelIdeal.KV.argX m c) (Cert.KernelIdeal.KV.argY m c), Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2]
  obtain ⟨hfin, hlab⟩ := Cert.F1.Pre.decode (Cert.KernelIdeal.KV.argX m c) (Cert.KernelIdeal.KV.argY m c) (hpre c)
  exact Cert.F1.Ref.val_eq_spec (Cert.KernelIdeal.KV.argX m c) (Cert.KernelIdeal.KV.argY m c) hfin hlab

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
